-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x784 : Shape := ⟨2, ![4096, 784]⟩
abbrev S16x64 : Shape := ⟨2, ![16, 64]⟩
abbrev S784x1024 : Shape := ⟨2, ![784, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S64x512 : Shape := ⟨2, ![64, 512]⟩
abbrev S512x1024 : Shape := ⟨2, ![512, 1024]⟩
abbrev S1024x784 : Shape := ⟨2, ![1024, 784]⟩
abbrev S784 : Shape := ⟨1, ![784]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S784x1024 : S_.BroadcastsInDim S784x1024 (![] : Fin 0 → Fin S784x1024.rank)
  reducesTo_S784x1024_S_d0_1 : S784x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  reducesTo_S64x512_S_d0_1 : S64x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x784 : S_.BroadcastsInDim S1024x784 (![] : Fin 0 → Fin S1024x784.rank)
  reducesTo_S1024x784_S_d0_1 : S1024x784.ReducesTo [0, 1] S_
  bcast_S_S784 : S_.BroadcastsInDim S784 (![] : Fin 0 → Fin S784.rank)
  reducesTo_S784_S_d0 : S784.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x784 .f32) (main_arg13 : FVec F S784 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x784 .f32 := Host.absf main_arg12
  let main_cst_22 : FVec F S_ .f32 := constant S_ .f32 0x7F800000#32
  let main_v60 : FVec F S1024x784 .f32 := broadcastInDim S1024x784 ![] bcast_S_S1024x784 main_cst_22
  let main_v61 : IVec S1024x784 1 := cmpf .olt main_v59 main_v60
  let main_c_23 : IVec S_ 1 := constantI S_ 1 1#1
  let main_v62 : IVec S_ 1 := (fun x v => Host.reduce IntOp.andi x v reducesTo_S1024x784_S_d0_1 h_S_) main_v61 main_c_23
  let main_v63 : IVec S_ 1 := andi main_v58 main_v62
  let main_v64 : FVec F S784 .f32 := Host.absf main_arg13
  let main_cst_24 : FVec F S_ .f32 := constant S_ .f32 0x7F800000#32
  let main_v65 : FVec F S784 .f32 := broadcastInDim S784 ![] bcast_S_S784 main_cst_24
  let main_v66 : IVec S784 1 := cmpf .olt main_v64 main_v65
  let main_c_25 : IVec S_ 1 := constantI S_ 1 1#1
  let main_v67 : IVec S_ 1 := (fun x v => Host.reduce IntOp.andi x v reducesTo_S784_S_d0 h_S_) main_v66 main_c_25
  fn_part4 (F := F) main_v63 main_v67

def fn_part2 {F : FTy → Type} [FloatOps F] (main_arg7 : FVec F S128 .f32) (main_arg8 : FVec F S64x512 .f32) (main_arg9 : FVec F S512 .f32) (main_arg10 : FVec F S512x1024 .f32) (main_arg11 : FVec F S1024 .f32) (main_arg12 : FVec F S1024x784 .f32) (main_arg13 : FVec F S784 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x512 .f32 := Host.absf main_arg8
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_v48 main_v49 main_v50

def fn_part1 {F : FTy → Type} [FloatOps F] (main_arg4 : FVec F S1024x512 .f32) (main_arg5 : FVec F S512 .f32) (main_arg6 : FVec F S512x128 .f32) (main_arg7 : FVec F S128 .f32) (main_arg8 : FVec F S64x512 .f32) (main_arg9 : FVec F S512 .f32) (main_arg10 : FVec F S512x1024 .f32) (main_arg11 : FVec F S1024 .f32) (main_arg12 : FVec F S1024x784 .f32) (main_arg13 : FVec F S784 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x784 .f32) (main_arg1 : FVec F S16x64 .f32) (main_arg2 : FVec F S784x1024 .f32) (main_arg3 : FVec F S1024 .f32) (main_arg4 : FVec F S1024x512 .f32) (main_arg5 : FVec F S512 .f32) (main_arg6 : FVec F S512x128 .f32) (main_arg7 : FVec F S128 .f32) (main_arg8 : FVec F S64x512 .f32) (main_arg9 : FVec F S512 .f32) (main_arg10 : FVec F S512x1024 .f32) (main_arg11 : FVec F S1024 .f32) (main_arg12 : FVec F S1024x784 .f32) (main_arg13 : FVec F S784 .f32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S784x1024 .f32 := Host.absf main_arg2
  let main_cst_2 : FVec F S_ .f32 := constant S_ .f32 0x7F800000#32
  let main_v10 : FVec F S784x1024 .f32 := broadcastInDim S784x1024 ![] bcast_S_S784x1024 main_cst_2
  let main_v11 : IVec S784x1024 1 := cmpf .olt main_v9 main_v10
  let main_c_3 : IVec S_ 1 := constantI S_ 1 1#1
  let main_v12 : IVec S_ 1 := (fun x v => Host.reduce IntOp.andi x v reducesTo_S784x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x784 : Shape := ⟨2, ![4096, 784]⟩
abbrev S16x64 : Shape := ⟨2, ![16, 64]⟩
abbrev S784x1024 : Shape := ⟨2, ![784, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S64x512 : Shape := ⟨2, ![64, 512]⟩
abbrev S512x1024 : Shape := ⟨2, ![512, 1024]⟩
abbrev S1024x784 : Shape := ⟨2, ![1024, 784]⟩
abbrev S784 : Shape := ⟨1, ![784]⟩
abbrev S1x1024 : Shape := ⟨2, ![1, 1024]⟩
abbrev S1x512 : Shape := ⟨2, ![1, 512]⟩
abbrev S1x128 : Shape := ⟨2, ![1, 128]⟩
abbrev S4096x128 : Shape := ⟨2, ![4096, 128]⟩
abbrev S512x784 : Shape := ⟨2, ![512, 784]⟩
abbrev S512x512 : Shape := ⟨2, ![512, 512]⟩
abbrev S4096x64 : Shape := ⟨2, ![4096, 64]⟩
abbrev S1x784 : Shape := ⟨2, ![1, 784]⟩
abbrev S65536x784 : Shape := ⟨2, ![65536, 784]⟩
abbrev S64x64 : Shape := ⟨2, ![64, 64]⟩
abbrev S1x16x64 : Shape := ⟨3, ![1, 16, 64]⟩
abbrev S64x1x64 : Shape := ⟨3, ![64, 1, 64]⟩
abbrev S64x16x64 : Shape := ⟨3, ![64, 16, 64]⟩
abbrev S1024x64 : Shape := ⟨2, ![1024, 64]⟩
abbrev S1024x1024 : Shape := ⟨2, ![1024, 1024]⟩

abbrev nBuf : Space → Nat
  | .hbm => 24
  | .vmem => 23
  | .smem => 0
  | _ => 0

abbrev bufTy : (tb : Table) → Fin (tcTables nBuf tb) → BufTy
  | .hbm, ⟨0, _⟩ => ⟨S4096x784, .f32⟩
  | .hbm, ⟨1, _⟩ => ⟨S16x64, .f32⟩
  | .hbm, ⟨2, _⟩ => ⟨S784x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S64x512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S1024x784, .f32⟩
  | .hbm, ⟨13, _⟩ => ⟨S784, .f32⟩
  | .hbm, ⟨14, _⟩ => ⟨S1x1024, .f32⟩
  | .hbm, ⟨15, _⟩ => ⟨S1x512, .f32⟩
  | .hbm, ⟨16, _⟩ => ⟨S1x128, .f32⟩
  | .hbm, ⟨17, _⟩ => ⟨S4096x128, .f32⟩
  | .hbm, ⟨18, _⟩ => ⟨S4096x64, .f32⟩
  | .hbm, ⟨19, _⟩ => ⟨S4096x64, .f32⟩
  | .hbm, ⟨20, _⟩ => ⟨S1x512, .f32⟩
  | .hbm, ⟨21, _⟩ => ⟨S1x1024, .f32⟩
  | .hbm, ⟨22, _⟩ => ⟨S1x784, .f32⟩
  | .hbm, ⟨23, _⟩ => ⟨S65536x784, .f32⟩
  | .local _ .vmem, ⟨0, _⟩ => ⟨S512x784, .f32⟩
  | .local _ .vmem, ⟨1, _⟩ => ⟨S512x784, .f32⟩
  | .local _ .vmem, ⟨2, _⟩ => ⟨S784x1024, .f32⟩
  | .local _ .vmem, ⟨3, _⟩ => ⟨S1x1024, .f32⟩
  | .local _ .vmem, ⟨4, _⟩ => ⟨S1024x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S16x64, .f32⟩
  | .local _ .vmem, ⟨15, _⟩ => ⟨S64x512, .f32⟩
  | .local _ .vmem, ⟨16, _⟩ => ⟨S1x512, .f32⟩
  | .local _ .vmem, ⟨17, _⟩ => ⟨S512x1024, .f32⟩
  | .local _ .vmem, ⟨18, _⟩ => ⟨S1x1024, .f32⟩
  | .local _ .vmem, ⟨19, _⟩ => ⟨S1024x784, .f32⟩
  | .local _ .vmem, ⟨20, _⟩ => ⟨S1x784, .f32⟩
  | .local _ .vmem, ⟨21, _⟩ => ⟨S1024x784, .f32⟩
  | .local _ .vmem, ⟨22, _⟩ => ⟨S1024x784, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x784 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x784 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x784 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S1024_S1x1024 : S1024.ShapeCasts S1x1024
  shapeCasts_S512_S1x512 : S512.ShapeCasts S1x512
  shapeCasts_S128_S1x128 : S128.ShapeCasts S1x128
  inb_S512x784_S512x784_0_0 : ∀ a, (![0, 0] : Fin 2 → Nat) a + S512x784.size a ≤ S512x784.size a
  h_S512x784 : 0 < S512x784.numel
  bitsLt_bf16_f32 : FTy.bits .bf16 < FTy.bits .f32
  inb_S784x1024_S784x1024_0_0 : ∀ a, (![0, 0] : Fin 2 → Nat) a + S784x1024.size a ≤ S784x1024.size a
  h_S784x1024 : 0 < S784x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S4096x128_S4096x64_0_0 : S4096x128.Slices ![0, 0] S4096x64
  slices_S4096x128_S4096x64_0_64 : S4096x128.Slices ![0, 64] S4096x64
  shapeCasts_S784_S1x784 : S784.ShapeCasts S1x784
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S1x16x64 : S16x64.ShapeCasts S1x16x64
  shapeCasts_S64x64_S64x1x64 : S64x64.ShapeCasts S64x1x64
  broadcasts_S1x16x64_S64x16x64 : S1x16x64.Broadcasts S64x16x64
  broadcasts_S64x1x64_S64x16x64 : S64x1x64.Broadcasts S64x16x64
  shapeCasts_S64x16x64_S1024x64 : S64x16x64.ShapeCasts S1024x64
  inb_S64x512_S64x512_0_0 : ∀ a, (![0, 0] : Fin 2 → Nat) a + S64x512.size a ≤ S64x512.size a
  h_S64x512 : 0 < S64x512.numel
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  broadcasts_S1x1024_S1024x1024 : S1x1024.Broadcasts S1024x1024
  inb_S1024x784_S1024x784_0_0 : ∀ a, (![0, 0] : Fin 2 → Nat) a + S1024x784.size a ≤ S1024x784.size a
  h_S1024x784 : 0 < S1024x784.numel
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S1024x784 : S1x784.Broadcasts S1024x784
  dot_S512x784_S784x1024_S512x1024_1_0_0_1_n_n_wf : DotDims.WF S512x784 S784x1024 S512x1024 [1] [0] [0] [1] [] []
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []
  dot_S1024x64_S64x512_S1024x512_1_0_0_1_n_n_wf : DotDims.WF S1024x64 S64x512 S1024x512 [1] [0] [0] [1] [] []
  dot_S1024x512_S512x1024_S1024x1024_1_0_0_1_n_n_wf : DotDims.WF S1024x512 S512x1024 S1024x1024 [1] [0] [0] [1] [] []
  dot_S1024x1024_S1024x784_S1024x784_1_0_0_1_n_n_wf : DotDims.WF S1024x1024 S1024x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S4096x784.size a
  hwx0_0 : ∀ i : grid0.Coords, EltTy.bits .f32 = 32 ∨ (Rect.block (s := S4096x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x64.size a ≤ S4096x64.size a
  hwx1_0 : ∀ i : grid1.Coords, EltTy.bits .f32 = 32 ∨ (Rect.block (s := S4096x64) S64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S4096x64.size a
  hwx1_1 : ∀ i : grid1.Coords, EltTy.bits .f32 = 32 ∨ (Rect.block (s := S4096x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x512.size a
  hwx1_3 : ∀ i : grid1.Coords, EltTy.bits .f32 = 32 ∨ (Rect.block (s := S64x512) S64x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .f32 = 32 ∨ (Rect.block (s := S512x1024) S512x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x784.size a ≤ S1024x784.size a
  hwx1_7 : ∀ i : grid1.Coords, EltTy.bits .f32 = 32 ∨ (Rect.block (s := S1024x784) S1024x784.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x784.size a ≤ S1x784.size a
  hwx1_8 : ∀ i : grid1.Coords, EltTy.bits .f32 = 32 ∨ (Rect.block (s := S1x784) S1x784.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x784.size a ≤ S65536x784.size a
  hwx1_9 : ∀ i : grid1.Coords, EltTy.bits .f32 = 32 ∨ (Rect.block (s := S65536x784) S1024x784.size (cc1_transform_9 i) (hinb1_9 i)).WholeWords (EltTy.packing .f32)

variable [Facts₀]

def dot_S512x784_S784x1024_S512x1024_1_0_0_1_n_n : DotDims S512x784 S784x1024 S512x1024 where
  lhsContracting := [1]
  rhsContracting := [0]
  lhsNonContracting := [0]
  rhsNonContracting := [1]
  lhsBatch := []
  rhsBatch := []
  wf := dot_S512x784_S784x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x784_S1024x784_1_0_0_1_n_n : DotDims S1024x1024 S1024x784 S1024x784 where
  lhsContracting := [1]
  rhsContracting := [0]
  lhsNonContracting := [0]
  rhsNonContracting := [1]
  lhsBatch := []
  rhsBatch := []
  wf := dot_S1024x1024_S1024x784_S1024x784_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S1024x784.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x784.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1024x784.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x784 : Shape := ⟨2, ![4096, 784]⟩
abbrev S16x64 : Shape := ⟨2, ![16, 64]⟩
abbrev S784x1024 : Shape := ⟨2, ![784, 1024]⟩
abbrev S1024 : Shape := ⟨1, ![1024]⟩
abbrev S1024x512 : Shape := ⟨2, ![1024, 512]⟩
abbrev S512 : Shape := ⟨1, ![512]⟩
abbrev S512x128 : Shape := ⟨2, ![512, 128]⟩
abbrev S128 : Shape := ⟨1, ![128]⟩
abbrev S64x512 : Shape := ⟨2, ![64, 512]⟩
abbrev S512x1024 : Shape := ⟨2, ![512, 1024]⟩
abbrev S1024x784 : Shape := ⟨2, ![1024, 784]⟩
abbrev S784 : Shape := ⟨1, ![784]⟩
abbrev S4096x1024 : Shape := ⟨2, ![4096, 1024]⟩
abbrev S1x1024 : Shape := ⟨2, ![1, 1024]⟩
abbrev S_ : Shape := ⟨0, ![]⟩
abbrev S4096x512 : Shape := ⟨2, ![4096, 512]⟩
abbrev S1x512 : Shape := ⟨2, ![1, 512]⟩
abbrev S4096x128 : Shape := ⟨2, ![4096, 128]⟩
abbrev S1x128 : Shape := ⟨2, ![1, 128]⟩
abbrev S4096x64 : Shape := ⟨2, ![4096, 64]⟩
abbrev S1x16x64 : Shape := ⟨3, ![1, 16, 64]⟩
abbrev S4096x1x64 : Shape := ⟨3, ![4096, 1, 64]⟩
abbrev S4096x16x64 : Shape := ⟨3, ![4096, 16, 64]⟩
abbrev S65536x64 : Shape := ⟨2, ![65536, 64]⟩
abbrev S65536x512 : Shape := ⟨2, ![65536, 512]⟩
abbrev S65536x1024 : Shape := ⟨2, ![65536, 1024]⟩
abbrev S65536x784 : Shape := ⟨2, ![65536, 784]⟩
abbrev S1x784 : Shape := ⟨2, ![1, 784]⟩

abbrev nBuf : Space → Nat
  | .hbm => 89
  | .vmem => 0
  | .smem => 0
  | _ => 0

abbrev bufTy : (tb : Table) → Fin (tcTables nBuf tb) → BufTy
  | .hbm, ⟨0, _⟩ => ⟨S4096x784, .f32⟩
  | .hbm, ⟨1, _⟩ => ⟨S16x64, .f32⟩
  | .hbm, ⟨2, _⟩ => ⟨S784x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S64x512, .f32⟩
  | .hbm, ⟨9, _⟩ => ⟨S512, .f32⟩
  | .hbm, ⟨10, _⟩ => ⟨S512x1024, .f32⟩
  | .hbm, ⟨11, _⟩ => ⟨S1024, .f32⟩
  | .hbm, ⟨12, _⟩ => ⟨S1024x784, .f32⟩
  | .hbm, ⟨13, _⟩ => ⟨S784, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x128, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S4096x64, .f32⟩
  | .hbm, ⟨43, _⟩ => ⟨S4096x64, .f32⟩
  | .hbm, ⟨44, _⟩ => ⟨S1x16x64, .f32⟩
  | .hbm, ⟨45, _⟩ => ⟨S4096x1x64, .f32⟩
  | .hbm, ⟨46, _⟩ => ⟨S4096x16x64, .f32⟩
  | .hbm, ⟨47, _⟩ => ⟨S4096x16x64, .f32⟩
  | .hbm, ⟨48, _⟩ => ⟨S4096x16x64, .f32⟩
  | .hbm, ⟨49, _⟩ => ⟨S4096x1x64, .f32⟩
  | .hbm, ⟨50, _⟩ => ⟨S4096x16x64, .f32⟩
  | .hbm, ⟨51, _⟩ => ⟨S4096x16x64, .f32⟩
  | .hbm, ⟨52, _⟩ => ⟨S65536x64, .f32⟩
  | .hbm, ⟨53, _⟩ => ⟨S65536x512, .f32⟩
  | .hbm, ⟨54, _⟩ => ⟨S1x512, .f32⟩
  | .hbm, ⟨55, _⟩ => ⟨S65536x512, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S_, .f32⟩
  | .hbm, ⟨60, _⟩ => ⟨S65536x512, .f32⟩
  | .hbm, ⟨61, _⟩ => ⟨S65536x512, .f32⟩
  | .hbm, ⟨62, _⟩ => ⟨S_, .f32⟩
  | .hbm, ⟨63, _⟩ => ⟨S65536x512, .f32⟩
  | .hbm, ⟨64, _⟩ => ⟨S65536x512, .f32⟩
  | .hbm, ⟨65, _⟩ => ⟨S65536x1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S65536x1024, .f32⟩
  | .hbm, ⟨70, _⟩ => ⟨S65536x1024, .f32⟩
  | .hbm, ⟨71, _⟩ => ⟨S_, .f32⟩
  | .hbm, ⟨72, _⟩ => ⟨S65536x1024, .f32⟩
  | .hbm, ⟨73, _⟩ => ⟨S65536x1024, .f32⟩
  | .hbm, ⟨74, _⟩ => ⟨S_, .f32⟩
  | .hbm, ⟨75, _⟩ => ⟨S65536x1024, .f32⟩
  | .hbm, ⟨76, _⟩ => ⟨S65536x1024, .f32⟩
  | .hbm, ⟨77, _⟩ => ⟨S65536x784, .f32⟩
  | .hbm, ⟨78, _⟩ => ⟨S1x784, .f32⟩
  | .hbm, ⟨79, _⟩ => ⟨S65536x784, .f32⟩
  | .hbm, ⟨80, _⟩ => ⟨S65536x784, .f32⟩
  | .hbm, ⟨81, _⟩ => ⟨S65536x784, .f32⟩
  | .hbm, ⟨82, _⟩ => ⟨S65536x784, .f32⟩
  | .hbm, ⟨83, _⟩ => ⟨S_, .f32⟩
  | .hbm, ⟨84, _⟩ => ⟨S65536x784, .f32⟩
  | .hbm, ⟨85, _⟩ => ⟨S65536x784, .f32⟩
  | .hbm, ⟨86, _⟩ => ⟨S_, .f32⟩
  | .hbm, ⟨87, _⟩ => ⟨S65536x784, .f32⟩
  | .hbm, ⟨88, _⟩ => ⟨S65536x784, .f32⟩
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  slices_S4096x128_S4096x64_0_0 : S4096x128.Slices ![0, 0] S4096x64
  slices_S4096x128_S4096x64_0_64 : S4096x128.Slices ![0, 64] S4096x64
  bcast_S16x64_S1x16x64_1_2 : S16x64.BroadcastsInDim S1x16x64 (![1, 2] : Fin 2 → Fin S1x16x64.rank)
  bcast_S4096x64_S4096x1x64_0_2 : S4096x64.BroadcastsInDim S4096x1x64 (![0, 2] : Fin 2 → Fin S4096x1x64.rank)
  bcast_S1x16x64_S4096x16x64_0_1_2 : S1x16x64.BroadcastsInDim S4096x16x64 (![0, 1, 2] : Fin 3 → Fin S4096x16x64.rank)
  bcast_S4096x1x64_S4096x16x64_0_1_2 : S4096x1x64.BroadcastsInDim S4096x16x64 (![0, 1, 2] : Fin 3 → Fin S4096x16x64.rank)
  shapeCasts_S4096x16x64_S65536x64 : S4096x16x64.ShapeCasts S65536x64
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S784_S1x784_1 : S784.BroadcastsInDim S1x784 (![1] : Fin 1 → Fin S1x784.rank)
  bcast_S1x784_S65536x784_0_1 : S1x784.BroadcastsInDim S65536x784 (![0, 1] : Fin 2 → Fin S65536x784.rank)
  bcast_S_S65536x784 : S_.BroadcastsInDim S65536x784 (![] : Fin 0 → Fin S65536x784.rank)
  dot_S4096x784_S784x1024_S4096x1024_1_0_0_1_n_n_wf : DotDims.WF S4096x784 S784x1024 S4096x1024 [1] [0] [0] [1] [] []
  dot_S4096x1024_S1024x512_S4096x512_1_0_0_1_n_n_wf : DotDims.WF S4096x1024 S1024x512 S4096x512 [1] [0] [0] [1] [] []
  dot_S4096x512_S512x128_S4096x128_1_0_0_1_n_n_wf : DotDims.WF S4096x512 S512x128 S4096x128 [1] [0] [0] [1] [] []
  dot_S65536x64_S64x512_S65536x512_1_0_0_1_n_n_wf : DotDims.WF S65536x64 S64x512 S65536x512 [1] [0] [0] [1] [] []
  dot_S65536x512_S512x1024_S65536x1024_1_0_0_1_n_n_wf : DotDims.WF S65536x512 S512x1024 S65536x1024 [1] [0] [0] [1] [] []
  dot_S65536x1024_S1024x784_S65536x784_1_0_0_1_n_n_wf : DotDims.WF S65536x1024 S1024x784 S65536x784 [1] [0] [0] [1] [] []

variable [Facts₀]

def dot_S4096x784_S784x1024_S4096x1024_1_0_0_1_n_n : DotDims S4096x784 S784x1024 S4096x1024 where
  lhsContracting := [1]
  rhsContracting := [0]
  lhsNonContracting := [0]
  rhsNonContracting := [1]
  lhsBatch := []
  rhsBatch := []
  wf := dot_S4096x784_S784x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x784_S65536x784_1_0_0_1_n_n : DotDims S65536x1024 S1024x784 S65536x784 where
  lhsContracting := [1]
  rhsContracting := [0]
  lhsNonContracting := [0]
  rhsNonContracting := [1]
  lhsBatch := []
  rhsBatch := []
  wf := dot_S65536x1024_S1024x784_S65536x784_1_0_0_1_n_n_wf

class Facts : Prop extends Facts₀ where

variable [Facts]
-- ==== Proof.Spec.lean ====
/-
  The two programs' common mathematics, on entry functions over the extended reals.

  A dense layer sends a matrix `x` (rows `p`, entries `x p k`) to `(∑ₖ x p k · w k q) + b q`; the activation is the
  logistic function entry by entry. The encoder is three dense layers with the logistic after the first two; its
  128 output columns are the latent mean (columns 0 … 63) and deviation (columns 64 … 127). Row `r` of the latent
  sample is `eps (r mod L) · sd (r div L) + mean (r div L)`: `L` noise rows for every batch row, batch-major. The
  decoder is three dense layers, each followed by the logistic.

  Every one of these maps acts on each row by itself: row `p` of the result depends on row `p` of the operand only.
  That is why a program that works on a block of rows at a time computes the same array as one that works on all
  rows at once (`dense_rows`, `act_rows`, `latent_rows`).
-/
import Idealize.ShloMosaic.PureOps.Ideal
import Idealize.ShloMosaic.Lib.ValueIdx

noncomputable section

namespace Cert.Mlp

open Idealize.ShloMosaic Idealize.ShloMosaic.ValueIdx

variable {M M' K N : Nat}

/-- A dense layer: `(∑ₖ x p k · w k q) + b q`. -/
def dense (x : Fin M → Fin K → EReal) (w : Fin K → Fin N → EReal) (b : Fin N → EReal) : Fin M → Fin N → EReal :=
  fun p q => (∑ k : Fin K, x p k * w k q) + b q

/-- The logistic function, entry by entry. -/
def act (f : Fin M → Fin N → EReal) : Fin M → Fin N → EReal := fun p q => Ideal.logistic (f p q)

/-- A dense layer of selected rows is the selected rows of the dense layer. -/
theorem dense_rows (ρ : Fin M' → Fin M) (x : Fin M → Fin K → EReal) (w : Fin K → Fin N → EReal) (b : Fin N → EReal) :
    dense (fun p => x (ρ p)) w b = fun p => dense x w b (ρ p) := rfl

/-- The activation of selected rows is the selected rows of the activation. -/
theorem act_rows (ρ : Fin M' → Fin M) (f : Fin M → Fin N → EReal) : act (fun p => f (ρ p)) = fun p => act f (ρ p) := rfl

/-- The encoder: dense, logistic, dense, logistic, dense. -/
def enc {D H1 H2 E : Nat} (x : Fin M → Fin D → EReal) (w1 : Fin D → Fin H1 → EReal) (b1 : Fin H1 → EReal)
    (w2 : Fin H1 → Fin H2 → EReal) (b2 : Fin H2 → EReal) (w3 : Fin H2 → Fin E → EReal) (b3 : Fin E → EReal) :
    Fin M → Fin E → EReal :=
  dense (act (dense (act (dense x w1 b1)) w2 b2)) w3 b3

/-- The decoder: dense, logistic, dense, logistic, dense, logistic. -/
def dec {Z H1 H2 D : Nat} (z : Fin M → Fin Z → EReal) (w1 : Fin Z → Fin H1 → EReal) (b1 : Fin H1 → EReal)
    (w2 : Fin H1 → Fin H2 → EReal) (b2 : Fin H2 → EReal) (w3 : Fin H2 → Fin D → EReal) (b3 : Fin D → EReal) :
    Fin M → Fin D → EReal :=
  act (dense (act (dense (act (dense z w1 b1)) w2 b2)) w3 b3)

theorem enc_rows {D H1 H2 E : Nat} (ρ : Fin M' → Fin M) (x : Fin M → Fin D → EReal) (w1 : Fin D → Fin H1 → EReal)
    (b1 : Fin H1 → EReal) (w2 : Fin H1 → Fin H2 → EReal) (b2 : Fin H2 → EReal) (w3 : Fin H2 → Fin E → EReal)
    (b3 : Fin E → EReal) : enc (fun p => x (ρ p)) w1 b1 w2 b2 w3 b3 = fun p => enc x w1 b1 w2 b2 w3 b3 (ρ p) := rfl

theorem dec_rows {Z H1 H2 D : Nat} (ρ : Fin M' → Fin M) (z : Fin M → Fin Z → EReal) (w1 : Fin Z → Fin H1 → EReal)
    (b1 : Fin H1 → EReal) (w2 : Fin H1 → Fin H2 → EReal) (b2 : Fin H2 → EReal) (w3 : Fin H2 → Fin D → EReal)
    (b3 : Fin D → EReal) : dec (fun p => z (ρ p)) w1 b1 w2 b2 w3 b3 = fun p => dec z w1 b1 w2 b2 w3 b3 (ρ p) := rfl

/-- The latent mean: the encoder's columns 0 … 63. -/
def meanOf (e : Fin M → Fin 128 → EReal) : Fin M → Fin 64 → EReal := fun p k => e p ⟨k.val, by omega⟩
/-- The latent deviation: the encoder's columns 64 … 127. -/
def sdOf (e : Fin M → Fin 128 → EReal) : Fin M → Fin 64 → EReal := fun p k => e p ⟨64 + k.val, by omega⟩

/-- The latent sample of `B` batch rows and 16 noise rows, batch-major: row `r` is
    `eps (r mod 16) · sd (r div 16) + mean (r div 16)`. -/
def latent {B R Z : Nat} (hR : R = B * 16) (eps : Fin 16 → Fin Z → EReal) (sd mean : Fin B → Fin Z → EReal) :
    Fin R → Fin Z → EReal :=
  fun r k => eps ⟨r.val % 16, Nat.mod_lt _ (by decide)⟩ k
      * sd ⟨r.val / 16, by have := r.isLt; omega⟩ k
    + mean ⟨r.val / 16, by have := r.isLt; omega⟩ k

/-- The latent sample of a block of batch rows is a block of rows of the latent sample: with `b` batch rows
    starting at batch row `o`, sample row `r` of the block is sample row `16·o + r` of the whole. -/
theorem latent_rows {B B' R R' Z : Nat} (hR : R = B * 16) (hR' : R' = B' * 16) (o : Nat) (ho : o + B' ≤ B)
    (eps : Fin 16 → Fin Z → EReal) (sd mean : Fin B → Fin Z → EReal) :
    latent hR' eps (fun p => sd ⟨o + p.val, by have := p.isLt; omega⟩) (fun p => mean ⟨o + p.val, by have := p.isLt; omega⟩)
      = fun r => latent hR eps sd mean ⟨16 * o + r.val, by have := r.isLt; omega⟩ := by
  funext r k
  unfold latent
  have e1 : (16 * o + r.val) % 16 = r.val % 16 := by omega
  have e2 : (16 * o + r.val) / 16 = o + r.val / 16 := by omega
  simp only [e1, e2]

/-! ## Arrays as entry functions -/

/-- A rank-2 array as a function of its two coordinates. -/
def mat {A B : Nat} (v : (⟨2, ![A, B]⟩ : Shape).Idx → EReal) : Fin A → Fin B → EReal := fun p q => v (ix2 p q)
/-- A rank-1 array as a function of its coordinate. -/
def vec {A : Nat} (v : (⟨1, ![A]⟩ : Shape).Idx → EReal) : Fin A → EReal := fun q => v (ix1 q)
/-- The one row of a `[1, A]` array. -/
def row {A : Nat} (v : (⟨2, ![1, A]⟩ : Shape).Idx → EReal) : Fin A → EReal := fun q => v (ix2 0 q)
/-- An entry function as a rank-2 array. -/
def arr {A B : Nat} (f : Fin A → Fin B → EReal) : (⟨2, ![A, B]⟩ : Shape).Idx → EReal := fun i => f (i 0) (i 1)

theorem arr_apply {A B : Nat} (f : Fin A → Fin B → EReal) (p : Fin A) (q : Fin B) : arr f (ix2 p q) = f p q := rfl

/-- An array is `arr f` when it reads `f p q` at every `(p, q)`. -/
theorem eq_arr {A B : Nat} (v : (⟨2, ![A, B]⟩ : Shape).Idx → EReal) (f : Fin A → Fin B → EReal)
    (h : ∀ p q, v (ix2 p q) = f p q) : v = arr f := by
  funext i
  rw [eq_ix2 i]
  exact h _ _

/-! ## The two results -/

/-- The encoder's output for the program's arguments: `[4096, 128]`. -/
def encOut (x : (⟨2, ![4096, 784]⟩ : Shape).Idx → EReal) (w1 : (⟨2, ![784, 1024]⟩ : Shape).Idx → EReal)
    (b1 : (⟨1, ![1024]⟩ : Shape).Idx → EReal) (w2 : (⟨2, ![1024, 512]⟩ : Shape).Idx → EReal)
    (b2 : (⟨1, ![512]⟩ : Shape).Idx → EReal) (w3 : (⟨2, ![512, 128]⟩ : Shape).Idx → EReal)
    (b3 : (⟨1, ![128]⟩ : Shape).Idx → EReal) : Fin 4096 → Fin 128 → EReal :=
  enc (mat x) (mat w1) (vec b1) (mat w2) (vec b2) (mat w3) (vec b3)

/-- The reconstruction: the decoder of the latent sample, `[65536, 784]`. -/
def recOut (e : Fin 4096 → Fin 128 → EReal) (eps : (⟨2, ![16, 64]⟩ : Shape).Idx → EReal)
    (w1 : (⟨2, ![64, 512]⟩ : Shape).Idx → EReal) (b1 : (⟨1, ![512]⟩ : Shape).Idx → EReal)
    (w2 : (⟨2, ![512, 1024]⟩ : Shape).Idx → EReal) (b2 : (⟨1, ![1024]⟩ : Shape).Idx → EReal)
    (w3 : (⟨2, ![1024, 784]⟩ : Shape).Idx → EReal) (b3 : (⟨1, ![784]⟩ : Shape).Idx → EReal) :
    Fin 65536 → Fin 784 → EReal :=
  dec (latent (B := 4096) (R := 65536) rfl (mat eps) (sdOf e) (meanOf e)) (mat w1) (vec b1) (mat w2) (vec b2) (mat w3) (vec b3)

/-- The word of `1.0` denotes the real number one. -/
theorem ofBits_one : Ideal.ofBits .f32 0x3F800000#32 = 1 := by
  simp [Ideal.ofBits, Ideal.ieee, -EReal.coe_mul]
  norm_num

/-- The logistic function spelt by the host's negate, exponential, add and divide. -/
theorem logistic_host (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [ofBits_one]
  rfl

end Cert.Mlp

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KernelLayer.lean ====
/-
  One layer of the kernels, read as an entry function.

  A kernel computes a dense layer as a matrix product into a zero accumulator plus its bias, the bias a `[1, N]` row
  broadcast over the rows; it narrows the product's operands to a 16-bit format first, which at the extended reals
  changes nothing, and applies the logistic function lane by lane. Read at `(p, q)` the product is `∑ₖ a(p,k)·w(k,q)`
  and the broadcast bias is `b(0, q)`: the layer is `dense` of the operands' entry functions.
-/
import proofs.«140682_j27693949125146_1_alg».proof.Proof.Spec
import proofs.«140682_j27693949125146_1_alg».proof.Proof.LibRowwise
import Idealize.ShloMosaic.Lib.Pipeline.Value

noncomputable section

namespace Cert.Mlp

open Idealize.ShloMosaic Idealize.ShloMosaic.ValueIdx Cert.Lib.Rowwise

variable {M K N : Nat}

/-- A `[1, N]` row broadcast over `M` rows reads, at `(p, q)`, the row at `(0, q)`. -/
theorem rowBroadcast_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split
    · have := q.isLt; omega
    · rfl

/-- A kernel's dense layer: the product into the zero accumulator plus the broadcast bias row. -/
theorem mat_kernelDense (D : DotDims ⟨2, ![M, K]⟩ ⟨2, ![K, N]⟩ ⟨2, ![M, N]⟩) (hD : D = DotDims.plain M K N)
    {φ₁ φ₂ : FTy} (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    mat (addf (matmul D none a w (constant ⟨2, ![M, N]⟩ .f32 0x00000000#32)) (broadcastTo ⟨2, ![M, N]⟩ b hb))
      = dense (mat a) (mat w) (row b) := by
  subst hD
  funext p q
  show FloatOps.matmul (DotDims.plain M K N) none a w (constant ⟨2, ![M, N]⟩ .f32 0x00000000#32) (ix2 p q)
      + broadcastTo ⟨2, ![M, N]⟩ b hb (ix2 p q) = _
  rw [plain_matmul_zero_apply, rowBroadcast_apply]
  rfl

/-- A kernel's product into the zero accumulator with no bias. -/
theorem mat_kernelDot (D : DotDims ⟨2, ![M, K]⟩ ⟨2, ![K, N]⟩ ⟨2, ![M, N]⟩) (hD : D = DotDims.plain M K N)
    {φ₁ φ₂ : FTy} (a : FVec Ideal ⟨2, ![M, K]⟩ φ₁) (w : FVec Ideal ⟨2, ![K, N]⟩ φ₂) :
    mat (matmul D none a w (constant ⟨2, ![M, N]⟩ .f32 0x00000000#32)) = fun p q => ∑ k : Fin K, mat a p k * mat w k q := by
  subst hD
  funext p q
  exact plain_matmul_zero_apply none a w p q

/-- Narrowing a vector's format changes no entry. -/
theorem mat_truncf {A B : Nat} {φ ψ : FTy} (v : FVec Ideal ⟨2, ![A, B]⟩ φ) (h : ψ.bits < φ.bits) :
    mat (truncf ψ v h) = mat v := rfl

/-- The logistic function lane by lane is the activation. -/
theorem mat_logistic {A B : Nat} {φ : FTy} (v : FVec Ideal ⟨2, ![A, B]⟩ φ) : mat (logistic v) = act (mat v) := rfl

end Cert.Mlp

end
-- ==== Proof.EncValue.lean ====
/-
  The encoder region's value: after the region, its output array holds the encoder of the operand arrays as the region
  finds them.

  At grid point `t` the body loads rows `512 t … 512 t + 511` of the input and the whole weight and bias arrays, and stores
  three dense layers of those rows (the logistic function after the first two) as rows `512 t … 512 t + 511` of the
  output. A dense layer and the logistic function act on each row by itself, so the encoder of a block of rows is that
  block of rows of the encoder of the whole input; the eight blocks tile the output.
-/
import proofs.«140682_j27693949125146_1_alg».proof.Proof.Gen.KernelIdeal.Frame
import proofs.«140682_j27693949125146_1_alg».proof.Proof.KernelLayer

set_option maxRecDepth 16384

noncomputable section

namespace Cert.KernelIdeal.EncValue

open Cert.KernelIdeal Cert.KernelIdeal.Gen Cert.Mlp Cert.Lib.Rowwise
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The encoder body's stored value, entry by entry: the encoder of its blocks' entry functions. -/
theorem pay (v0 : Vec Ideal S512x784 .f32) (v2 : Vec Ideal S784x1024 .f32) (v5 : Vec Ideal S1x1024 .f32)
    (v11 : Vec Ideal S1024x512 .f32) (v14 : Vec Ideal S1x512 .f32) (v20 : Vec Ideal S512x128 .f32)
    (v23 : Vec Ideal S1x128 .f32) :
    mat (k0_pay1 (F := Ideal) v0 v2 v5 v11 v14 v20 v23)
      = enc (mat v0) (mat v2) (row v5) (mat v11) (row v14) (mat v20) (row v23) := by
  unfold k0_pay1 enc
  simp only [shapeCast_self]
  rw [mat_kernelDense _ (eq_plain _ rfl rfl rfl rfl rfl rfl), mat_truncf, mat_logistic,
    mat_kernelDense _ (eq_plain _ rfl rfl rfl rfl rfl rfl), mat_truncf, mat_logistic,
    mat_kernelDense _ (eq_plain _ rfl rfl rfl rfl rfl rfl), mat_truncf, mat_truncf, mat_truncf, mat_truncf]

/-- What the body leaves in the output block is that stored value. -/
theorem out_eq (x0 : Vec Ideal S512x784 .f32) (x1 : Vec Ideal S784x1024 .f32) (x2 : Vec Ideal S1x1024 .f32)
    (x3 : Vec Ideal S1024x512 .f32) (x4 : Vec Ideal S1x512 .f32) (x5 : Vec Ideal S512x128 .f32)
    (x6 : Vec Ideal S1x128 .f32) :
    out0_7 (F := Ideal) x0 x1 x2 x3 x4 x5 x6 = k0_pay1 (F := Ideal) x0 x1 x2 x3 x4 x5 x6 := by
  unfold out0_7
  rw [View.canon_unit_zero hz]
  simp only [View.ld_unit_zero (S := S512x784) hz, View.ld_unit_zero (S := S784x1024) hz, View.ld_unit_zero (S := S1x1024) hz,
    View.ld_unit_zero (S := S1024x512) hz, View.ld_unit_zero (S := S1x512) hz, View.ld_unit_zero (S := S512x128) hz,
    View.ld_unit_zero (S := S1x128) hz]

/-! ## The region at entry contents `V` -/

variable (V : (c : Dev nD) → (b : Ref sig .tc) → Buf (Elt Ideal) ((c : Thread nD τ).loc b))

/-- The region's operand arrays, at their literal types. -/
abbrev xArr (c : Dev nD) : Vec Ideal S4096x784 .f32 := V c main_arg0
abbrev w1Arr (c : Dev nD) : Vec Ideal S784x1024 .f32 := V c main_arg2
abbrev b1Arr (c : Dev nD) : Vec Ideal S1x1024 .f32 := V c main_v0
abbrev w2Arr (c : Dev nD) : Vec Ideal S1024x512 .f32 := V c main_arg4
abbrev b2Arr (c : Dev nD) : Vec Ideal S1x512 .f32 := V c main_v1
abbrev w3Arr (c : Dev nD) : Vec Ideal S512x128 .f32 := V c main_arg6
abbrev b3Arr (c : Dev nD) : Vec Ideal S1x128 .f32 := V c main_v2

/-- The blocks the body loads at point `t`, at their literal types. -/
abbrev xBlk (c : Dev nD) (t : Fin cfg0.N) : Vec Ideal S512x784 .f32 := iblk0 V c 0 t
abbrev w1Blk (c : Dev nD) (t : Fin cfg0.N) : Vec Ideal S784x1024 .f32 := iblk0 V c 1 t
abbrev b1Blk (c : Dev nD) (t : Fin cfg0.N) : Vec Ideal S1x1024 .f32 := iblk0 V c 2 t
abbrev w2Blk (c : Dev nD) (t : Fin cfg0.N) : Vec Ideal S1024x512 .f32 := iblk0 V c 3 t
abbrev b2Blk (c : Dev nD) (t : Fin cfg0.N) : Vec Ideal S1x512 .f32 := iblk0 V c 4 t
abbrev w3Blk (c : Dev nD) (t : Fin cfg0.N) : Vec Ideal S512x128 .f32 := iblk0 V c 5 t
abbrev b3Blk (c : Dev nD) (t : Fin cfg0.N) : Vec Ideal S1x128 .f32 := iblk0 V c 6 t

/-- The encoder's output array of the operands as the region finds them. -/
def G (c : Dev nD) : Vec Ideal S4096x128 .f32 :=
  arr (enc (mat (xArr V c)) (mat (w1Arr V c)) (row (b1Arr V c)) (mat (w2Arr V c)) (row (b2Arr V c))
    (mat (w3Arr V c)) (row (b3Arr V c)))

/-- The index maps over the grid: the input rows and the output rows move with the point, block `t` at point `t`;
    the weights and biases stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 8 := by have := t.isLt; have h8 : cfg0.N = 8 := N_0; omega

/-- The input block at point `t` is rows `512 t … 512 t + 511` of the input. -/
theorem xBlk_eq (c : Dev nD) (t : Fin cfg0.N) :
    mat (xBlk V c t) = fun p => mat (xArr V c) ⟨512 * t.val + p.val, by have := t_lt t; have := p.isLt; omega⟩ := by
  funext p k
  obtain ⟨e0, e1, -⟩ := idx_facts t
  show V c main_arg0 (((cfg0.win 0).blk t).view.emb (ix2 p k)) = V c main_arg0 (ix2 _ k)
  have h : ((cfg0.win 0).blk t).view.emb (ix2 p k) = ix2 ⟨512 * t.val + p.val, by have := t_lt t; have := p.isLt; omega⟩ k := by
    funext a; apply Fin.ext
    match a with
    | ⟨0, _⟩ => show win0_0.index t (0 : Fin 2) * 512 + 1 * p.val = 512 * t.val + p.val; omega
    | ⟨1, _⟩ => show win0_0.index t (1 : Fin 2) * 784 + 1 * k.val = k.val; omega
  rw [h]

/-- Window 1's block is its whole array at every point. -/
theorem w1Blk_eq (c : Dev nD) (t : Fin cfg0.N) : w1Blk V c t = w1Arr V c := by
  funext j
  obtain ⟨e00, e01, e10, e11, e20, e21, e30, e31, e40, e41, e50, e51, e60, e61, e70, e71⟩ := idx_facts t
  show V c main_arg2 (((cfg0.win 1).blk t).view.emb j) = V c main_arg2 j
  have h : ((cfg0.win 1).blk t).view.emb j = j := by
    funext a; apply Fin.ext
    match a with
    | ⟨0, _⟩ => show win0_1.index t (0 : Fin 2) * 784 + 1 * (j 0).val = (j 0).val; omega
    | ⟨1, _⟩ => show win0_1.index t (1 : Fin 2) * 1024 + 1 * (j 1).val = (j 1).val; omega
  rw [h]

/-- Window 2's block is its whole array at every point. -/
theorem b1Blk_eq (c : Dev nD) (t : Fin cfg0.N) : b1Blk V c t = b1Arr V c := by
  funext j
  obtain ⟨e00, e01, e10, e11, e20, e21, e30, e31, e40, e41, e50, e51, e60, e61, e70, e71⟩ := idx_facts t
  show V c main_v0 (((cfg0.win 2).blk t).view.emb j) = V c main_v0 j
  have h : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 1024 + 1 * (j 1).val = (j 1).val; omega
  rw [h]

/-- Window 3's block is its whole array at every point. -/
theorem w2Blk_eq (c : Dev nD) (t : Fin cfg0.N) : w2Blk V c t = w2Arr V c := by
  funext j
  obtain ⟨e00, e01, e10, e11, e20, e21, e30, e31, e40, e41, e50, e51, e60, e61, e70, e71⟩ := idx_facts t
  show V c main_arg4 (((cfg0.win 3).blk t).view.emb j) = V c main_arg4 j
  have h : ((cfg0.win 3).blk t).view.emb j = j := by
    funext a; apply Fin.ext
    match a with
    | ⟨0, _⟩ => show win0_3.index t (0 : Fin 2) * 1024 + 1 * (j 0).val = (j 0).val; omega
    | ⟨1, _⟩ => show win0_3.index t (1 : Fin 2) * 512 + 1 * (j 1).val = (j 1).val; omega
  rw [h]

/-- Window 4's block is its whole array at every point. -/
theorem b2Blk_eq (c : Dev nD) (t : Fin cfg0.N) : b2Blk V c t = b2Arr V c := by
  funext j
  obtain ⟨e00, e01, e10, e11, e20, e21, e30, e31, e40, e41, e50, e51, e60, e61, e70, e71⟩ := idx_facts t
  show V c main_v1 (((cfg0.win 4).blk t).view.emb j) = V c main_v1 j
  have h : ((cfg0.win 4).blk t).view.emb j = j := by
    funext a; apply Fin.ext
    match a with
    | ⟨0, _⟩ => show win0_4.index t (0 : Fin 2) * 1 + 1 * (j 0).val = (j 0).val; omega
    | ⟨1, _⟩ => show win0_4.index t (1 : Fin 2) * 512 + 1 * (j 1).val = (j 1).val; omega
  rw [h]

/-- Window 5's block is its whole array at every point. -/
theorem w3Blk_eq (c : Dev nD) (t : Fin cfg0.N) : w3Blk V c t = w3Arr V c := by
  funext j
  obtain ⟨e00, e01, e10, e11, e20, e21, e30, e31, e40, e41, e50, e51, e60, e61, e70, e71⟩ := idx_facts t
  show V c main_arg6 (((cfg0.win 5).blk t).view.emb j) = V c main_arg6 j
  have h : ((cfg0.win 5).blk t).view.emb j = j := by
    funext a; apply Fin.ext
    match a with
    | ⟨0, _⟩ => show win0_5.index t (0 : Fin 2) * 512 + 1 * (j 0).val = (j 0).val; omega
    | ⟨1, _⟩ => show win0_5.index t (1 : Fin 2) * 128 + 1 * (j 1).val = (j 1).val; omega
  rw [h]

/-- Window 6's block is its whole array at every point. -/
theorem b3Blk_eq (c : Dev nD) (t : Fin cfg0.N) : b3Blk V c t = b3Arr V c := by
  funext j
  obtain ⟨e00, e01, e10, e11, e20, e21, e30, e31, e40, e41, e50, e51, e60, e61, e70, e71⟩ := idx_facts t
  show V c main_v2 (((cfg0.win 6).blk t).view.emb j) = V c main_v2 j
  have h : ((cfg0.win 6).blk t).view.emb j = j := by
    funext a; apply Fin.ext
    match a with
    | ⟨0, _⟩ => show win0_6.index t (0 : Fin 2) * 1 + 1 * (j 0).val = (j 0).val; omega
    | ⟨1, _⟩ => show win0_6.index t (1 : Fin 2) * 128 + 1 * (j 1).val = (j 1).val; omega
  rw [h]

/-- WHAT POINT `t` WRITES BACK is block `t` of the encoder's output array: the body's value is the encoder of its
    blocks, the input block is rows `512 t …` of the input, and the encoder acts row by row. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  rw [out_eq (xBlk V c t) (w1Blk V c t) (b1Blk V c t) (w2Blk V c t) (b2Blk V c t) (w3Blk V c t) (b3Blk V c t)]
  funext j
  obtain ⟨p, q, rfl⟩ : ∃ (p : Fin 512) (q : Fin 128), j = ix2 p q := ⟨j 0, j 1, eq_ix2 j⟩
  obtain ⟨e00, e01, e10, e11, e20, e21, e30, e31, e40, e41, e50, e51, e60, e61, e70, e71⟩ := idx_facts t
  show mat (k0_pay1 (F := Ideal) (xBlk V c t) (w1Blk V c t) (b1Blk V c t) (w2Blk V c t) (b2Blk V c t) (w3Blk V c t) (b3Blk V c t)) p q
      = G V c (((cfg0.win 7).blk t).view.emb (ix2 p q))
  have h : ((cfg0.win 7).blk t).view.emb (ix2 p q) = ix2 ⟨512 * t.val + p.val, by have := t_lt t; have := p.isLt; omega⟩ q := by
    funext a; apply Fin.ext
    match a with
    | ⟨0, _⟩ => show win0_7.index t (0 : Fin 2) * 512 + 1 * p.val = 512 * t.val + p.val; omega
    | ⟨1, _⟩ => show win0_7.index t (1 : Fin 2) * 128 + 1 * q.val = q.val; omega
  rw [h, pay, xBlk_eq, w1Blk_eq, b1Blk_eq, w2Blk_eq, b2Blk_eq, w3Blk_eq, b3Blk_eq, enc_rows]
  rfl

/-- An index of the output array is in point `t`'s block iff each coordinate is in the block's range. -/
theorem mem_blk (t : Fin cfg0.N) (i : S4096x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v3).slice (win0_7.rect t)).set ↔ _
  rw [View.set_slice_whole, Rect.mem_set_unit]
  exact Iff.rfl

/-- Every row of the output lies in the block of the point `row / 512`. -/
theorem cover (i : S4096x128.Idx) : ∃ t : Fin cfg0.N, (cfg0.win 7).flush t = true ∧ i ∈ ((cfg0.win 7).blk t).view.set := by
  have hi0 : (i 0).val < 4096 := (i 0).isLt
  have hi1 : (i 1).val < 128 := (i 1).isLt
  have h8 : cfg0.N = 8 := N_0
  refine ⟨⟨(i 0).val / 512, by omega⟩, flush0_7 _, ?_⟩
  obtain ⟨e00, e01, e10, e11, e20, e21, e30, e31, e40, e41, e50, e51, e60, e61, e70, e71⟩ := idx_facts ⟨(i 0).val / 512, by omega⟩
  rw [mem_blk]
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e70]
    show (i 0).val / 512 * 512 ≤ (i 0).val ∧ (i 0).val < (i 0).val / 512 * 512 + 512
    omega
  | ⟨1, _⟩ =>
    show win0_7.index ⟨(i 0).val / 512, _⟩ (1 : Fin 2) * 128 ≤ (i 1).val ∧ (i 1).val < win0_7.index ⟨(i 0).val / 512, _⟩ (1 : Fin 2) * 128 + 128
    rw [e71]
    omega

/-- THE ENCODER'S ARRAY after the region: the encoder of the operands as the region finds them. -/
theorem final (c : Dev nD) : (dat0 V c).arrAt 7 cfg0.N = G V c :=
  (dat0 V c).arrAt_eq_of_cover 7 (G V c) (fun t _ => flushed_eq V c t) cover

end Cert.KernelIdeal.EncValue

end
-- ==== Proof.DecValue.lean ====
/-
  The decoder region's value: after the region, the reconstruction array holds the decoder of the latent sample of the
  operand arrays as the region finds them.

  At grid point `t` the body loads rows `64 t … 64 t + 63` of the mean and of the deviation and the whole noise, weight
  and bias arrays, forms the 1024 latent rows of those 64 batch rows (the noise cast to `[1, 16, 64]`, the two blocks to
  `[64, 1, 64]`, all three broadcast to `[64, 16, 64]`, multiplied and added, and the result laid out as `[1024, 64]`),
  and stores the decoder of them as rows `1024 t … 1024 t + 1023` of the output. The latent rows of a block of batch
  rows are a block of the latent rows, and the decoder acts row by row, so these are the output's own rows; the 64
  blocks tile the output.
-/
import proofs.«140682_j27693949125146_1_alg».proof.Proof.Gen.KernelIdeal.Frame
import proofs.«140682_j27693949125146_1_alg».proof.Proof.KernelLayer

set_option maxRecDepth 16384

noncomputable section

namespace Cert.KernelIdeal.DecValue

open Cert.KernelIdeal Cert.KernelIdeal.Gen Cert.Mlp Cert.Lib.Rowwise
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-! ## The latent rows of a block -/

/-- The noise, cast to `[1, 16, 64]` and broadcast over the batch rows, at `(a, b, k)`: the noise at `(b, k)`. -/
theorem noise_apply (v : Vec Ideal S16x64 .f32) (h1 : S16x64.ShapeCasts S1x16x64) (h2 : S1x16x64.Broadcasts S64x16x64)
    (a : Fin 64) (b : Fin 16) (k : Fin 64) :
    broadcastTo S64x16x64 (shapeCast S1x16x64 v h1) h2 (ix3 a b k) = v (ix2 b k) := by
  have e : broadcastTo S64x16x64 (shapeCast S1x16x64 v h1) h2 (ix3 a b k) = shapeCast S1x16x64 v h1 (ix3 0 b k) := by
    refine broadcastTo_apply _ h2 (ix3 a b k) (ix3 0 b k) fun d => ?_
    match d with
    | ⟨0, _⟩ => exact (if_pos rfl).symm
    | ⟨1, _⟩ => show b.val = if (16 : Nat) = 1 then 0 else b.val; rw [if_neg (by decide)]
    | ⟨2, _⟩ => show k.val = if (64 : Nat) = 1 then 0 else k.val; rw [if_neg (by decide)]
  rw [e]
  refine shapeCast_apply v h1 (ix3 0 b k) (ix2 b k) ?_
  rw [Shape.rowMajor_val_three, Shape.rowMajor_val_two]
  show b.val * 64 + k.val = ((0 : Fin 1).val * 16 + b.val) * 64 + k.val
  simp

/-- A `[64, 64]` block, cast to `[64, 1, 64]` and broadcast over the noise rows, at `(a, b, k)`: the block at `(a, k)`. -/
theorem perBatch_apply (v : Vec Ideal S64x64 .f32) (h1 : S64x64.ShapeCasts S64x1x64) (h2 : S64x1x64.Broadcasts S64x16x64)
    (a : Fin 64) (b : Fin 16) (k : Fin 64) :
    broadcastTo S64x16x64 (shapeCast S64x1x64 v h1) h2 (ix3 a b k) = v (ix2 a k) := by
  have e : broadcastTo S64x16x64 (shapeCast S64x1x64 v h1) h2 (ix3 a b k) = shapeCast S64x1x64 v h1 (ix3 a 0 k) := by
    refine broadcastTo_apply _ h2 (ix3 a b k) (ix3 a 0 k) fun d => ?_
    match d with
    | ⟨0, _⟩ => show a.val = if (64 : Nat) = 1 then 0 else a.val; rw [if_neg (by decide)]
    | ⟨1, _⟩ => exact (if_pos rfl).symm
    | ⟨2, _⟩ => show k.val = if (64 : Nat) = 1 then 0 else k.val; rw [if_neg (by decide)]
  rw [e]
  refine shapeCast_apply v h1 (ix3 a 0 k) (ix2 a k) ?_
  rw [Shape.rowMajor_val_three, Shape.rowMajor_val_two]
  show a.val * 64 + k.val = (a.val * 1 + (0 : Fin 1).val) * 64 + k.val
  simp

/-- The body's latent rows: `noise · deviation + mean`, laid out as `[1024, 64]`, are the latent sample of the 64 batch
    rows of the two blocks. -/
theorem latent_eq (mean sd : Vec Ideal S64x64 .f32) (eps : Vec Ideal S16x64 .f32)
    (h1 : S16x64.ShapeCasts S1x16x64) (h2 : S1x16x64.Broadcasts S64x16x64) (h3 : S64x64.ShapeCasts S64x1x64)
    (h4 : S64x1x64.Broadcasts S64x16x64) (h5 : S64x16x64.ShapeCasts S1024x64) :
    mat (shapeCast S1024x64 (addf (F := Ideal) (φ := .f32) (mulf (broadcastTo S64x16x64 (shapeCast S1x16x64 eps h1) h2)
        (broadcastTo S64x16x64 (shapeCast S64x1x64 sd h3) h4)) (broadcastTo S64x16x64 (shapeCast S64x1x64 mean h3) h4)) h5)
      = latent (B := 64) (R := 1024) rfl (mat eps) (mat sd) (mat mean) := by
  funext r k
  have hr : r.val < 1024 := r.isLt
  have hk : k.val < 64 := k.isLt
  show shapeCast S1024x64 _ h5 (ix2 r k) = _
  rw [shapeCast_apply _ h5 (ix2 r k) (ix3 ⟨r.val / 16, by omega⟩ ⟨r.val % 16, by omega⟩ k) (by
    rw [Shape.rowMajor_val_three, Shape.rowMajor_val_two]
    show (r.val / 16 * 16 + r.val % 16) * 64 + k.val = r.val * 64 + k.val
    omega)]
  rw [addf_apply, mulf_apply, noise_apply, perBatch_apply, perBatch_apply]
  rfl

/-! ## The body's stored value -/

/-- The decoder body's stored value, entry by entry: the decoder of the latent rows of its blocks. -/
theorem pay (v0 : Vec Ideal S64x64 .f32) (v2 : Vec Ideal S64x64 .f32) (v4 : Vec Ideal S16x64 .f32)
    (v15 : Vec Ideal S64x512 .f32) (v18 : Vec Ideal S1x512 .f32) (v24 : Vec Ideal S512x1024 .f32)
    (v27 : Vec Ideal S1x1024 .f32) (v33 : Vec Ideal S1024x784 .f32) (v36 : Vec Ideal S1x784 .f32) :
    mat (k1_pay1 (F := Ideal) (k1_pay2 v0 v2 v4 v15 v18 v24 v27 v33) (k1_pay3 v36))
      = dec (latent (B := 64) (R := 1024) rfl (mat v4) (mat v2) (mat v0)) (mat v15) (row v18) (mat v24) (row v27)
          (mat v33) (row v36) := by
  unfold k1_pay1 k1_pay2 k1_pay3 dec
  simp only [shapeCast_self]
  rw [mat_logistic, mat_kernelDense _ (eq_plain _ rfl rfl rfl rfl rfl rfl), mat_truncf, mat_logistic,
    mat_kernelDense _ (eq_plain _ rfl rfl rfl rfl rfl rfl), mat_truncf, mat_logistic,
    mat_kernelDense _ (eq_plain _ rfl rfl rfl rfl rfl rfl), mat_truncf, latent_eq, mat_truncf, mat_truncf, mat_truncf]

/-- What the body leaves in the output block is that stored value. -/
theorem out_eq (x0 : Vec Ideal S64x64 .f32) (x1 : Vec Ideal S64x64 .f32) (x2 : Vec Ideal S16x64 .f32)
    (x3 : Vec Ideal S64x512 .f32) (x4 : Vec Ideal S1x512 .f32) (x5 : Vec Ideal S512x1024 .f32)
    (x6 : Vec Ideal S1x1024 .f32) (x7 : Vec Ideal S1024x784 .f32) (x8 : Vec Ideal S1x784 .f32) :
    out1_9 (F := Ideal) x0 x1 x2 x3 x4 x5 x6 x7 x8 = k1_pay1 (F := Ideal) (k1_pay2 x0 x1 x2 x3 x4 x5 x6 x7) (k1_pay3 x8) := by
  unfold out1_9
  rw [View.canon_unit_zero hz]
  simp only [View.ld_unit_zero (S := S64x64) hz, View.ld_unit_zero (S := S16x64) hz, View.ld_unit_zero (S := S64x512) hz,
    View.ld_unit_zero (S := S1x512) hz, View.ld_unit_zero (S := S512x1024) hz, View.ld_unit_zero (S := S1x1024) hz,
    View.ld_unit_zero (S := S1024x784) hz, View.ld_unit_zero (S := S1x784) hz]

/-! ## The region at entry contents `V` -/

variable (V : (c : Dev nD) → (b : Ref sig .tc) → Buf (Elt Ideal) ((c : Thread nD τ).loc b))

/-- The region's operand arrays, at their literal types. -/
abbrev meanArr (c : Dev nD) : Vec Ideal S4096x64 .f32 := V c main_v4
abbrev sdArr (c : Dev nD) : Vec Ideal S4096x64 .f32 := V c main_v5
abbrev epsArr (c : Dev nD) : Vec Ideal S16x64 .f32 := V c main_arg1
abbrev w1Arr (c : Dev nD) : Vec Ideal S64x512 .f32 := V c main_arg8
abbrev b1Arr (c : Dev nD) : Vec Ideal S1x512 .f32 := V c main_v6
abbrev w2Arr (c : Dev nD) : Vec Ideal S512x1024 .f32 := V c main_arg10
abbrev b2Arr (c : Dev nD) : Vec Ideal S1x1024 .f32 := V c main_v7
abbrev w3Arr (c : Dev nD) : Vec Ideal S1024x784 .f32 := V c main_arg12
abbrev b3Arr (c : Dev nD) : Vec Ideal S1x784 .f32 := V c main_v8

/-- The blocks the body loads at point `t`, at their literal types. -/
abbrev meanBlk (c : Dev nD) (t : Fin cfg1.N) : Vec Ideal S64x64 .f32 := iblk1 V c 0 t
abbrev sdBlk (c : Dev nD) (t : Fin cfg1.N) : Vec Ideal S64x64 .f32 := iblk1 V c 1 t
abbrev epsBlk (c : Dev nD) (t : Fin cfg1.N) : Vec Ideal S16x64 .f32 := iblk1 V c 2 t
abbrev w1Blk (c : Dev nD) (t : Fin cfg1.N) : Vec Ideal S64x512 .f32 := iblk1 V c 3 t
abbrev b1Blk (c : Dev nD) (t : Fin cfg1.N) : Vec Ideal S1x512 .f32 := iblk1 V c 4 t
abbrev w2Blk (c : Dev nD) (t : Fin cfg1.N) : Vec Ideal S512x1024 .f32 := iblk1 V c 5 t
abbrev b2Blk (c : Dev nD) (t : Fin cfg1.N) : Vec Ideal S1x1024 .f32 := iblk1 V c 6 t
abbrev w3Blk (c : Dev nD) (t : Fin cfg1.N) : Vec Ideal S1024x784 .f32 := iblk1 V c 7 t
abbrev b3Blk (c : Dev nD) (t : Fin cfg1.N) : Vec Ideal S1x784 .f32 := iblk1 V c 8 t

/-- The reconstruction array of the operands as the region finds them. -/
def G (c : Dev nD) : Vec Ideal S65536x784 .f32 :=
  arr (dec (latent (B := 4096) (R := 65536) rfl (mat (epsArr V c)) (mat (sdArr V c)) (mat (meanArr V c)))
    (mat (w1Arr V c)) (row (b1Arr V c)) (mat (w2Arr V c)) (row (b2Arr V c)) (mat (w3Arr V c)) (row (b3Arr V c)))

/-- The index maps over the grid: the mean, the deviation and the output move with the point, block `t` at point `t`;
    the noise, the weights and the biases stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem t_lt (t : Fin cfg1.N) : t.val < 64 := by have := t.isLt; have h64 : cfg1.N = 64 := N_1; omega

/-- Window 0's block at point `t` is rows `64 t … 64 t + 63` of its array. -/
theorem meanBlk_eq (c : Dev nD) (t : Fin cfg1.N) :
    mat (meanBlk V c t) = fun p => mat (meanArr V c) ⟨64 * t.val + p.val, by have := t_lt t; have := p.isLt; omega⟩ := by
  funext p k
  obtain ⟨e00, e01, e10, e11, e20, e21, e30, e31, e40, e41, e50, e51, e60, e61, e70, e71, e80, e81, e90, e91⟩ := idx_facts t
  show V c main_v4 (((cfg1.win 0).blk t).view.emb (ix2 p k)) = V c main_v4 (ix2 _ k)
  have h : ((cfg1.win 0).blk t).view.emb (ix2 p k) = ix2 ⟨64 * t.val + p.val, by have := t_lt t; have := p.isLt; omega⟩ k := by
    funext a; apply Fin.ext
    match a with
    | ⟨0, _⟩ => show win1_0.index t (0 : Fin 2) * 64 + 1 * p.val = 64 * t.val + p.val; omega
    | ⟨1, _⟩ => show win1_0.index t (1 : Fin 2) * 64 + 1 * k.val = k.val; omega
  rw [h]

/-- Window 1's block at point `t` is rows `64 t … 64 t + 63` of its array. -/
theorem sdBlk_eq (c : Dev nD) (t : Fin cfg1.N) :
    mat (sdBlk V c t) = fun p => mat (sdArr V c) ⟨64 * t.val + p.val, by have := t_lt t; have := p.isLt; omega⟩ := by
  funext p k
  obtain ⟨e00, e01, e10, e11, e20, e21, e30, e31, e40, e41, e50, e51, e60, e61, e70, e71, e80, e81, e90, e91⟩ := idx_facts t
  show V c main_v5 (((cfg1.win 1).blk t).view.emb (ix2 p k)) = V c main_v5 (ix2 _ k)
  have h : ((cfg1.win 1).blk t).view.emb (ix2 p k) = ix2 ⟨64 * t.val + p.val, by have := t_lt t; have := p.isLt; omega⟩ k := by
    funext a; apply Fin.ext
    match a with
    | ⟨0, _⟩ => show win1_1.index t (0 : Fin 2) * 64 + 1 * p.val = 64 * t.val + p.val; omega
    | ⟨1, _⟩ => show win1_1.index t (1 : Fin 2) * 64 + 1 * k.val = k.val; omega
  rw [h]

/-- Window 2's block is its whole array at every point. -/
theorem epsBlk_eq (c : Dev nD) (t : Fin cfg1.N) : epsBlk V c t = epsArr V c := by
  funext j
  obtain ⟨e00, e01, e10, e11, e20, e21, e30, e31, e40, e41, e50, e51, e60, e61, e70, e71, e80, e81, e90, e91⟩ := idx_facts t
  show V c main_arg1 (((cfg1.win 2).blk t).view.emb j) = V c main_arg1 j
  have h : ((cfg1.win 2).blk t).view.emb j = j := by
    funext a; apply Fin.ext
    match a with
    | ⟨0, _⟩ => show win1_2.index t (0 : Fin 2) * 16 + 1 * (j 0).val = (j 0).val; omega
    | ⟨1, _⟩ => show win1_2.index t (1 : Fin 2) * 64 + 1 * (j 1).val = (j 1).val; omega
  rw [h]

/-- Window 3's block is its whole array at every point. -/
theorem w1Blk_eq (c : Dev nD) (t : Fin cfg1.N) : w1Blk V c t = w1Arr V c := by
  funext j
  obtain ⟨e00, e01, e10, e11, e20, e21, e30, e31, e40, e41, e50, e51, e60, e61, e70, e71, e80, e81, e90, e91⟩ := idx_facts t
  show V c main_arg8 (((cfg1.win 3).blk t).view.emb j) = V c main_arg8 j
  have h : ((cfg1.win 3).blk t).view.emb j = j := by
    funext a; apply Fin.ext
    match a with
    | ⟨0, _⟩ => show win1_3.index t (0 : Fin 2) * 64 + 1 * (j 0).val = (j 0).val; omega
    | ⟨1, _⟩ => show win1_3.index t (1 : Fin 2) * 512 + 1 * (j 1).val = (j 1).val; omega
  rw [h]

/-- Window 4's block is its whole array at every point. -/
theorem b1Blk_eq (c : Dev nD) (t : Fin cfg1.N) : b1Blk V c t = b1Arr V c := by
  funext j
  obtain ⟨e00, e01, e10, e11, e20, e21, e30, e31, e40, e41, e50, e51, e60, e61, e70, e71, e80, e81, e90, e91⟩ := idx_facts t
  show V c main_v6 (((cfg1.win 4).blk t).view.emb j) = V c main_v6 j
  have h : ((cfg1.win 4).blk t).view.emb j = j := by
    funext a; apply Fin.ext
    match a with
    | ⟨0, _⟩ => show win1_4.index t (0 : Fin 2) * 1 + 1 * (j 0).val = (j 0).val; omega
    | ⟨1, _⟩ => show win1_4.index t (1 : Fin 2) * 512 + 1 * (j 1).val = (j 1).val; omega
  rw [h]

/-- Window 5's block is its whole array at every point. -/
theorem w2Blk_eq (c : Dev nD) (t : Fin cfg1.N) : w2Blk V c t = w2Arr V c := by
  funext j
  obtain ⟨e00, e01, e10, e11, e20, e21, e30, e31, e40, e41, e50, e51, e60, e61, e70, e71, e80, e81, e90, e91⟩ := idx_facts t
  show V c main_arg10 (((cfg1.win 5).blk t).view.emb j) = V c main_arg10 j
  have h : ((cfg1.win 5).blk t).view.emb j = j := by
    funext a; apply Fin.ext
    match a with
    | ⟨0, _⟩ => show win1_5.index t (0 : Fin 2) * 512 + 1 * (j 0).val = (j 0).val; omega
    | ⟨1, _⟩ => show win1_5.index t (1 : Fin 2) * 1024 + 1 * (j 1).val = (j 1).val; omega
  rw [h]

/-- Window 6's block is its whole array at every point. -/
theorem b2Blk_eq (c : Dev nD) (t : Fin cfg1.N) : b2Blk V c t = b2Arr V c := by
  funext j
  obtain ⟨e00, e01, e10, e11, e20, e21, e30, e31, e40, e41, e50, e51, e60, e61, e70, e71, e80, e81, e90, e91⟩ := idx_facts t
  show V c main_v7 (((cfg1.win 6).blk t).view.emb j) = V c main_v7 j
  have h : ((cfg1.win 6).blk t).view.emb j = j := by
    funext a; apply Fin.ext
    match a with
    | ⟨0, _⟩ => show win1_6.index t (0 : Fin 2) * 1 + 1 * (j 0).val = (j 0).val; omega
    | ⟨1, _⟩ => show win1_6.index t (1 : Fin 2) * 1024 + 1 * (j 1).val = (j 1).val; omega
  rw [h]

/-- Window 7's block is its whole array at every point. -/
theorem w3Blk_eq (c : Dev nD) (t : Fin cfg1.N) : w3Blk V c t = w3Arr V c := by
  funext j
  obtain ⟨e00, e01, e10, e11, e20, e21, e30, e31, e40, e41, e50, e51, e60, e61, e70, e71, e80, e81, e90, e91⟩ := idx_facts t
  show V c main_arg12 (((cfg1.win 7).blk t).view.emb j) = V c main_arg12 j
  have h : ((cfg1.win 7).blk t).view.emb j = j := by
    funext a; apply Fin.ext
    match a with
    | ⟨0, _⟩ => show win1_7.index t (0 : Fin 2) * 1024 + 1 * (j 0).val = (j 0).val; omega
    | ⟨1, _⟩ => show win1_7.index t (1 : Fin 2) * 784 + 1 * (j 1).val = (j 1).val; omega
  rw [h]

/-- Window 8's block is its whole array at every point. -/
theorem b3Blk_eq (c : Dev nD) (t : Fin cfg1.N) : b3Blk V c t = b3Arr V c := by
  funext j
  obtain ⟨e00, e01, e10, e11, e20, e21, e30, e31, e40, e41, e50, e51, e60, e61, e70, e71, e80, e81, e90, e91⟩ := idx_facts t
  show V c main_v8 (((cfg1.win 8).blk t).view.emb j) = V c main_v8 j
  have h : ((cfg1.win 8).blk t).view.emb j = j := by
    funext a; apply Fin.ext
    match a with
    | ⟨0, _⟩ => show win1_8.index t (0 : Fin 2) * 1 + 1 * (j 0).val = (j 0).val; omega
    | ⟨1, _⟩ => show win1_8.index t (1 : Fin 2) * 784 + 1 * (j 1).val = (j 1).val; omega
  rw [h]

/-- WHAT POINT `t` WRITES BACK is block `t` of the reconstruction array: the body's value is the decoder of the latent
    rows of its blocks, those are rows `1024 t …` of the latent sample, and the decoder acts row by row. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  rw [out_eq (meanBlk V c t) (sdBlk V c t) (epsBlk V c t) (w1Blk V c t) (b1Blk V c t) (w2Blk V c t) (b2Blk V c t)
    (w3Blk V c t) (b3Blk V c t)]
  funext j
  obtain ⟨p, q, rfl⟩ : ∃ (p : Fin 1024) (q : Fin 784), j = ix2 p q := ⟨j 0, j 1, eq_ix2 j⟩
  obtain ⟨e00, e01, e10, e11, e20, e21, e30, e31, e40, e41, e50, e51, e60, e61, e70, e71, e80, e81, e90, e91⟩ := idx_facts t
  have ht := t_lt t
  show mat (k1_pay1 (F := Ideal) (k1_pay2 (meanBlk V c t) (sdBlk V c t) (epsBlk V c t) (w1Blk V c t) (b1Blk V c t)
      (w2Blk V c t) (b2Blk V c t) (w3Blk V c t)) (k1_pay3 (b3Blk V c t))) p q
      = G V c (((cfg1.win 9).blk t).view.emb (ix2 p q))
  have h : ((cfg1.win 9).blk t).view.emb (ix2 p q) = ix2 ⟨16 * (64 * t.val) + p.val, by have := p.isLt; omega⟩ q := by
    funext a; apply Fin.ext
    match a with
    | ⟨0, _⟩ => show win1_9.index t (0 : Fin 2) * 1024 + 1 * p.val = 16 * (64 * t.val) + p.val; omega
    | ⟨1, _⟩ => show win1_9.index t (1 : Fin 2) * 784 + 1 * q.val = q.val; omega
  rw [h, pay, meanBlk_eq, sdBlk_eq, epsBlk_eq, w1Blk_eq, b1Blk_eq, w2Blk_eq, b2Blk_eq, w3Blk_eq, b3Blk_eq]
  rw [latent_rows (B := 4096) (B' := 64) (R := 65536) (R' := 1024) rfl rfl (64 * t.val) (by omega) (mat (epsArr V c))
    (mat (sdArr V c)) (mat (meanArr V c)), dec_rows]
  rfl

/-- An index of the output array is in point `t`'s block iff each coordinate is in the block's range. -/
theorem mem_blk (t : Fin cfg1.N) (i : S65536x784.Idx) :
    i ∈ ((cfg1.win 9).blk t).view.set ↔ ∀ a : Fin 2, win1_9.index t a * S1024x784.size a ≤ (i a).val ∧ (i a).val < win1_9.index t a * S1024x784.size a + S1024x784.size a := by
  show i ∈ ((View.whole main_v9).slice (win1_9.rect t)).set ↔ _
  rw [View.set_slice_whole, Rect.mem_set_unit]
  exact Iff.rfl

/-- Every row of the output lies in the block of the point `row / 1024`. -/
theorem cover (i : S65536x784.Idx) : ∃ t : Fin cfg1.N, (cfg1.win 9).flush t = true ∧ i ∈ ((cfg1.win 9).blk t).view.set := by
  have hi0 : (i 0).val < 65536 := (i 0).isLt
  have hi1 : (i 1).val < 784 := (i 1).isLt
  have h64 : cfg1.N = 64 := N_1
  refine ⟨⟨(i 0).val / 1024, by omega⟩, flush1_9 _, ?_⟩
  obtain ⟨e00, e01, e10, e11, e20, e21, e30, e31, e40, e41, e50, e51, e60, e61, e70, e71, e80, e81, e90, e91⟩ := idx_facts ⟨(i 0).val / 1024, by omega⟩
  rw [mem_blk]
  intro a
  match a with
  | ⟨0, _⟩ =>
    show win1_9.index ⟨(i 0).val / 1024, _⟩ (0 : Fin 2) * 1024 ≤ (i 0).val ∧ (i 0).val < win1_9.index ⟨(i 0).val / 1024, _⟩ (0 : Fin 2) * 1024 + 1024
    rw [e90]
    show (i 0).val / 1024 * 1024 ≤ (i 0).val ∧ (i 0).val < (i 0).val / 1024 * 1024 + 1024
    omega
  | ⟨1, _⟩ =>
    show win1_9.index ⟨(i 0).val / 1024, _⟩ (1 : Fin 2) * 784 ≤ (i 1).val ∧ (i 1).val < win1_9.index ⟨(i 0).val / 1024, _⟩ (1 : Fin 2) * 784 + 784
    rw [e91]
    omega

/-- THE RECONSTRUCTION ARRAY after the region: the decoder of the latent sample of the operands as the region finds them. -/
theorem final (c : Dev nD) : (dat1 V c).arrAt 9 cfg1.N = G V c :=
  (dat1 V c).arrAt_eq_of_cover 9 (G V c) (fun t _ => flushed_eq V c t) cover

end Cert.KernelIdeal.DecValue

end
-- ==== Proof.KernelValue.lean ====
/-
  The kernel program's three results as functions of its arguments.

  The program reshapes the three encoder biases to rows, runs the encoder region, slices the encoder's array into the
  latent mean (columns 0 … 63) and deviation (columns 64 … 127), reshapes the three decoder biases to rows, and runs the
  decoder region. Reading the buffer contents at each boundary back to the launch memory: the encoder region finds the
  arguments and the bias rows, so it leaves the encoder's output of the arguments; the decoder region finds the two slices
  of that array, the noise, the weights and the bias rows, so it leaves the decoder of the latent sample. The second and
  third results are the two slices, which the decoder region only reads.
-/
import proofs.«140682_j27693949125146_1_alg».proof.Proof.EncValue
import proofs.«140682_j27693949125146_1_alg».proof.Proof.DecValue

set_option maxRecDepth 16384

noncomputable section

namespace Cert.KernelIdeal.Results

open Cert.KernelIdeal Cert.KernelIdeal.Gen Cert.Mlp
open Idealize.ShloMosaic Idealize.ShloMosaic.TcCoe Idealize.ShloMosaic.ValueIdx Idealize.ShloMosaic.StableHlo
open Idealize.SL.Sem

/-! ## Two layout facts -/

/-- A length-`N` vector cast to a `[1, N]` row reads, at `(0, q)`, the vector at `q`. -/
theorem row_cast {N : Nat} (v : (⟨1, ![N]⟩ : Shape).Idx → EReal) (h : (⟨1, ![N]⟩ : Shape).ShapeCasts ⟨2, ![1, N]⟩) :
    row (shapeCast ⟨2, ![1, N]⟩ v h) = vec v := by
  funext q
  refine shapeCast_apply v h (ix2 0 q) (ix1 q) ?_
  rw [Shape.rowMajor_val_one, Shape.rowMajor_val_two]
  show q.val = (0 : Fin 1).val * N + q.val
  simp

/-- An array is the array of its entry function. -/
theorem arr_mat {A B : Nat} (v : (⟨2, ![A, B]⟩ : Shape).Idx → EReal) : v = arr (mat v) := eq_arr v (mat v) fun _ _ => rfl

/-- Columns 0 … 63 of a `[4096, 128]` array of entries `e` are `meanOf e`. -/
theorem mat_sliceLo (e : Fin 4096 → Fin 128 → EReal) (h : S4096x128.Slices ![0, 0] S4096x64) :
    mat (extractStridedSlice S4096x64 ![0, 0] (arr e) h) = meanOf e := by
  funext p k
  have hk : k.val < 64 := k.isLt
  refine (extractStridedSlice_apply ![0, 0] (arr e) h (ix2 p k) (ix2 p ⟨k.val, by omega⟩) fun a => ?_).trans rfl
  match a with
  | ⟨0, _⟩ => show p.val = 0 + p.val; omega
  | ⟨1, _⟩ => show k.val = 0 + k.val; omega

/-- Columns 64 … 127 of a `[4096, 128]` array of entries `e` are `sdOf e`. -/
theorem mat_sliceHi (e : Fin 4096 → Fin 128 → EReal) (h : S4096x128.Slices ![0, 64] S4096x64) :
    mat (extractStridedSlice S4096x64 ![0, 64] (arr e) h) = sdOf e := by
  funext p k
  have hk : k.val < 64 := k.isLt
  refine (extractStridedSlice_apply ![0, 64] (arr e) h (ix2 p k) (ix2 p ⟨64 + k.val, by omega⟩) fun a => ?_).trans rfl
  match a with
  | ⟨0, _⟩ => show p.val = 0 + p.val; omega
  | ⟨1, _⟩ => show 64 + k.val = 64 + k.val; rfl

/-! ## The boundaries read back -/

variable (m : (ℓ : Loc nD τ sig) → Buf (Elt Ideal) ℓ) (ρ : Dev nD → PrngReg) (c : Dev nD)

/-- The program's arguments as launched, at their literal types. -/
abbrev a0 : Vec Ideal S4096x784 .f32 := m ((c.tc : Thread nD τ).loc main_arg0)
abbrev a1 : Vec Ideal S16x64 .f32 := m ((c.tc : Thread nD τ).loc main_arg1)
abbrev a2 : Vec Ideal S784x1024 .f32 := m ((c.tc : Thread nD τ).loc main_arg2)
abbrev a3 : Vec Ideal S1024 .f32 := m ((c.tc : Thread nD τ).loc main_arg3)
abbrev a4 : Vec Ideal S1024x512 .f32 := m ((c.tc : Thread nD τ).loc main_arg4)
abbrev a5 : Vec Ideal S512 .f32 := m ((c.tc : Thread nD τ).loc main_arg5)
abbrev a6 : Vec Ideal S512x128 .f32 := m ((c.tc : Thread nD τ).loc main_arg6)
abbrev a7 : Vec Ideal S128 .f32 := m ((c.tc : Thread nD τ).loc main_arg7)
abbrev a8 : Vec Ideal S64x512 .f32 := m ((c.tc : Thread nD τ).loc main_arg8)
abbrev a9 : Vec Ideal S512 .f32 := m ((c.tc : Thread nD τ).loc main_arg9)
abbrev a10 : Vec Ideal S512x1024 .f32 := m ((c.tc : Thread nD τ).loc main_arg10)
abbrev a11 : Vec Ideal S1024 .f32 := m ((c.tc : Thread nD τ).loc main_arg11)
abbrev a12 : Vec Ideal S1024x784 .f32 := m ((c.tc : Thread nD τ).loc main_arg12)
abbrev a13 : Vec Ideal S784 .f32 := m ((c.tc : Thread nD τ).loc main_arg13)

/-- The encoder's output of the arguments. -/
abbrev E : Fin 4096 → Fin 128 → EReal := encOut (a0 m c) (a2 m c) (a3 m c) (a4 m c) (a5 m c) (a6 m c) (a7 m c)

/-! ### What the encoder region finds -/

theorem enc_x : EncValue.xArr (V1 m ρ) c = a0 m c := by
  show StableHlo.after hostOps0 (W0 m ρ c) (Proc.devRef .tc main_arg0) = _
  after_results <;> rfl
theorem enc_w1 : EncValue.w1Arr (V1 m ρ) c = a2 m c := by
  show StableHlo.after hostOps0 (W0 m ρ c) (Proc.devRef .tc main_arg2) = _
  after_results <;> rfl
theorem enc_w2 : EncValue.w2Arr (V1 m ρ) c = a4 m c := by
  show StableHlo.after hostOps0 (W0 m ρ c) (Proc.devRef .tc main_arg4) = _
  after_results <;> rfl
theorem enc_w3 : EncValue.w3Arr (V1 m ρ) c = a6 m c := by
  show StableHlo.after hostOps0 (W0 m ρ c) (Proc.devRef .tc main_arg6) = _
  after_results <;> rfl
theorem enc_b1 : row (EncValue.b1Arr (V1 m ρ) c) = vec (a3 m c) := by
  have e : EncValue.b1Arr (V1 m ρ) c = shapeCast S1x1024 (a3 m c) shapeCasts_S1024_S1x1024 := by
    show StableHlo.after hostOps0 (W0 m ρ c) (Proc.devRef .tc main_v0) = _
    after_results <;> rfl
  rw [e]; exact row_cast _ _
theorem enc_b2 : row (EncValue.b2Arr (V1 m ρ) c) = vec (a5 m c) := by
  have e : EncValue.b2Arr (V1 m ρ) c = shapeCast S1x512 (a5 m c) shapeCasts_S512_S1x512 := by
    show StableHlo.after hostOps0 (W0 m ρ c) (Proc.devRef .tc main_v1) = _
    after_results <;> rfl
  rw [e]; exact row_cast _ _
theorem enc_b3 : row (EncValue.b3Arr (V1 m ρ) c) = vec (a7 m c) := by
  have e : EncValue.b3Arr (V1 m ρ) c = shapeCast S1x128 (a7 m c) shapeCasts_S128_S1x128 := by
    show StableHlo.after hostOps0 (W0 m ρ c) (Proc.devRef .tc main_v2) = _
    after_results <;> rfl
  rw [e]; exact row_cast _ _

/-- After the encoder region its output buffer holds the encoder's output of the arguments. -/
theorem enc_array : W2 m ρ c (Proc.devRef .tc main_v3) = arr (E m c) := by
  refine ((W2_arr m ρ c 7).trans (EncValue.final (V1 m ρ) c)).trans ?_
  unfold EncValue.G E encOut
  rw [enc_x, enc_w1, enc_w2, enc_w3, enc_b1, enc_b2, enc_b3]

/-! ### What the decoder region finds -/

/-- An argument no host operation writes, read at the encoder region's exit. -/
theorem W2_arg (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = W0 m ρ c (Proc.devRef .tc b) :=
  (W2_of_ne m ρ c b hb).trans h0

theorem dec_mean : mat (DecValue.meanArr (V3 m ρ) c) = meanOf (E m c) := by
  have e : DecValue.meanArr (V3 m ρ) c
      = extractStridedSlice S4096x64 ![0, 0] (W2 m ρ c (Proc.devRef .tc main_v3)) slices_S4096x128_S4096x64_0_0 := by
    show StableHlo.after hostOps1 (W2 m ρ c) (Proc.devRef .tc main_v4) = _
    after_results <;> rfl
  rw [e, enc_array]; exact mat_sliceLo _ _
theorem dec_sd : mat (DecValue.sdArr (V3 m ρ) c) = sdOf (E m c) := by
  have e : DecValue.sdArr (V3 m ρ) c
      = extractStridedSlice S4096x64 ![0, 64] (W2 m ρ c (Proc.devRef .tc main_v3)) slices_S4096x128_S4096x64_0_64 := by
    show StableHlo.after hostOps1 (W2 m ρ c) (Proc.devRef .tc main_v5) = _
    after_results <;> rfl
  rw [e, enc_array]; exact mat_sliceHi _ _
theorem dec_eps : DecValue.epsArr (V3 m ρ) c = a1 m c :=
  ((W4_arr m ρ c 2).trans (((dat1 (V3 m ρ) c).arrAt_in 2 rfl _).trans (A_eq1 (V3 m ρ) c 2))).symm.trans (W4_main_arg1 m ρ c)
theorem dec_w1 : DecValue.w1Arr (V3 m ρ) c = a8 m c :=
  ((W4_arr m ρ c 3).trans (((dat1 (V3 m ρ) c).arrAt_in 3 rfl _).trans (A_eq1 (V3 m ρ) c 3))).symm.trans (W4_main_arg8 m ρ c)
theorem dec_w2 : DecValue.w2Arr (V3 m ρ) c = a10 m c :=
  ((W4_arr m ρ c 5).trans (((dat1 (V3 m ρ) c).arrAt_in 5 rfl _).trans (A_eq1 (V3 m ρ) c 5))).symm.trans (W4_main_arg10 m ρ c)
theorem dec_w3 : DecValue.w3Arr (V3 m ρ) c = a12 m c :=
  ((W4_arr m ρ c 7).trans (((dat1 (V3 m ρ) c).arrAt_in 7 rfl _).trans (A_eq1 (V3 m ρ) c 7))).symm.trans (W4_main_arg12 m ρ c)
theorem dec_b1 : row (DecValue.b1Arr (V3 m ρ) c) = vec (a9 m c) := by
  have e : DecValue.b1Arr (V3 m ρ) c = shapeCast S1x512 (W2 m ρ c (Proc.devRef .tc main_arg9)) shapeCasts_S512_S1x512 := by
    show StableHlo.after hostOps1 (W2 m ρ c) (Proc.devRef .tc main_v6) = _
    after_results <;> rfl
  have e' : W2 m ρ c (Proc.devRef .tc main_arg9) = a9 m c :=
    W2_arg m ρ c main_arg9 (by decide) (by after_results <;> rfl)
  rw [e, e']; exact row_cast _ _
theorem dec_b2 : row (DecValue.b2Arr (V3 m ρ) c) = vec (a11 m c) := by
  have e : DecValue.b2Arr (V3 m ρ) c = shapeCast S1x1024 (W2 m ρ c (Proc.devRef .tc main_arg11)) shapeCasts_S1024_S1x1024 := by
    show StableHlo.after hostOps1 (W2 m ρ c) (Proc.devRef .tc main_v7) = _
    after_results <;> rfl
  have e' : W2 m ρ c (Proc.devRef .tc main_arg11) = a11 m c :=
    W2_arg m ρ c main_arg11 (by decide) (by after_results <;> rfl)
  rw [e, e']; exact row_cast _ _
theorem dec_b3 : row (DecValue.b3Arr (V3 m ρ) c) = vec (a13 m c) := by
  have e : DecValue.b3Arr (V3 m ρ) c = shapeCast S1x784 (W2 m ρ c (Proc.devRef .tc main_arg13)) shapeCasts_S784_S1x784 := by
    show StableHlo.after hostOps1 (W2 m ρ c) (Proc.devRef .tc main_v8) = _
    after_results <;> rfl
  have e' : W2 m ρ c (Proc.devRef .tc main_arg13) = a13 m c :=
    W2_arg m ρ c main_arg13 (by decide) (by after_results <;> rfl)
  rw [e, e']; exact row_cast _ _

/-! ## The three results -/

/-- The first result: the reconstruction. -/
theorem res_rec : W4 m ρ c (Proc.devRef .tc main_v9)
    = arr (recOut (E m c) (a1 m c) (a8 m c) (a9 m c) (a10 m c) (a11 m c) (a12 m c) (a13 m c)) := by
  refine ((W4_arr m ρ c 9).trans (DecValue.final (V3 m ρ) c)).trans ?_
  unfold DecValue.G recOut
  rw [dec_mean, dec_sd, dec_eps, dec_w1, dec_w2, dec_w3, dec_b1, dec_b2, dec_b3]

/-- The second result: the latent mean. -/
theorem res_mean : W4 m ρ c (Proc.devRef .tc main_v4) = arr (meanOf (E m c)) := by
  refine ((W4_arr m ρ c 0).trans (((dat1 (V3 m ρ) c).arrAt_in 0 rfl _).trans (A_eq1 (V3 m ρ) c 0))).trans ?_
  show DecValue.meanArr (V3 m ρ) c = _
  rw [arr_mat (DecValue.meanArr (V3 m ρ) c), dec_mean]

/-- The third result: the latent deviation. -/
theorem res_sd : W4 m ρ c (Proc.devRef .tc main_v5) = arr (sdOf (E m c)) := by
  refine ((W4_arr m ρ c 1).trans (((dat1 (V3 m ρ) c).arrAt_in 1 rfl _).trans (A_eq1 (V3 m ρ) c 1))).trans ?_
  show DecValue.sdArr (V3 m ρ) c = _
  rw [arr_mat (DecValue.sdArr (V3 m ρ) c), dec_sd]

end Cert.KernelIdeal.Results

end
-- ==== Proof.Reference.lean ====
/-
  The reference program's values, read layer by layer.

  The reference is a variational autoencoder's forward pass. Every stage of it reads its operands at an index, so a
  layer can be read at one entry `(p, q)`: a matrix product is `∑ₖ l p k · r k q`, the bias `b q` reaches the entry
  through two broadcasts, and negate, exponential, `1 + ·`, `1 / ·` spell the logistic function. One lemma per
  layer, each resting on the one before:

    x ─dense,logistic→ h₁ ─dense,logistic→ h₂ ─dense→ e            (the encoder; `e` has 128 columns)
    mean = columns 0 … 63 of e,  sd = columns 64 … 127 of e
    z (b · 16 + l) k = eps l k · sd b k + mean b k                  (the latent sample, 16 noise rows per batch row)
    z ─dense,logistic→ g₁ ─dense,logistic→ g₂ ─dense,logistic→ the reconstruction   (the decoder)
-/
import proofs.«140682_j27693949125146_1_alg».proof.Proof.Gen.ReferenceIdeal.Run
import proofs.«140682_j27693949125146_1_alg».proof.Proof.Gen.ReferenceIdeal.Read
import proofs.«140682_j27693949125146_1_alg».proof.Proof.Spec

noncomputable section

namespace Cert.RefValue

open Cert.ReferenceIdeal Cert.ReferenceIdeal.Read Cert.Mlp Idealize.ShloMosaic Idealize.ShloMosaic.ValueIdx

/-- The first encoder layer at `(p, q)`: the logistic of `(∑ₖ x p k · w₁ k q) + b₁ q`. -/
theorem layer1
    (x0 : (⟨S4096x784, .f32⟩ : BufTy).Contents (Elt Ideal)) (x2 : (⟨S784x1024, .f32⟩ : BufTy).Contents (Elt Ideal))
    (x3 : (⟨S1024, .f32⟩ : BufTy).Contents (Elt Ideal))
    (p : Fin 4096) (q : Fin 1024) :
    val_main_v9 (F := Ideal) x0 x2 x3 (ix2 p q) = (act (dense (mat x0) (mat x2) (vec x3))) p q := by
  rw [val_main_v9_apply, val_main_v8_apply, val_main_cst_0_apply, val_main_v7_apply, val_main_v6_apply, val_main_cst_apply,
    val_main_v5_apply, val_main_v4_apply, val_main_v3_apply, val_main_v2_apply, val_main_v1_apply, val_main_v0_apply]
  have e1 : ∀ k, lidx_main_v0 (ix2 p q) k = ix2 p k := fun k => funext fun a => Fin.ext (by
    match a with
    | ⟨0, _⟩ => rfl
    | ⟨1, _⟩ => rfl)
  have e2 : ∀ k, ridx_main_v0 (ix2 p q) k = ix2 k q := fun k => funext fun a => Fin.ext (by
    match a with
    | ⟨0, _⟩ => rfl
    | ⟨1, _⟩ => rfl)
  have e3 : idx_main_v1 (idx_main_v2 (ix2 p q)) = ix1 q := funext fun a => Fin.ext (by
    match a with
    | ⟨0, _⟩ => rfl)
  simp only [e1, e2, e3]
  rw [logistic_host]
  rfl

/-- The second encoder layer at `(p, q)`: the logistic of `(∑ₖ h₁ p k · w₂ k q) + b₂ q`, `h₁` the first layer. -/
theorem layer2
    (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal))
    (p : Fin 4096) (q : Fin 512) :
    val_main_v19 (F := Ideal) x0 x2 x3 x4 x5 (ix2 p q) = (act (dense (act (dense (mat x0) (mat x2) (vec x3))) (mat x4) (vec x5))) p q := by
  rw [val_main_v19_apply, val_main_v18_apply, val_main_cst_2_apply, val_main_v17_apply, val_main_v16_apply, val_main_cst_1_apply,
    val_main_v15_apply, val_main_v14_apply, val_main_v13_apply, val_main_v12_apply, val_main_v11_apply, val_main_v10_apply]
  have e1 : ∀ k, lidx_main_v10 (ix2 p q) k = ix2 p k := fun k => funext fun a => Fin.ext (by
    match a with
    | ⟨0, _⟩ => rfl
    | ⟨1, _⟩ => rfl)
  have e2 : ∀ k, ridx_main_v10 (ix2 p q) k = ix2 k q := fun k => funext fun a => Fin.ext (by
    match a with
    | ⟨0, _⟩ => rfl
    | ⟨1, _⟩ => rfl)
  have e3 : idx_main_v11 (idx_main_v12 (ix2 p q)) = ix1 q := funext fun a => Fin.ext (by
    match a with
    | ⟨0, _⟩ => rfl)
  simp only [e1, e2, e3, layer1]
  rw [logistic_host]
  rfl

/-- The reference's encoder output (the buffer both slices read) at `(p, q)`. -/
theorem enc_apply (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) (p : Fin 4096) (q : Fin 128) :
    val_main_v23 (F := Ideal) x0 x2 x3 x4 x5 x6 x7 (ix2 p q) = encOut x0 x2 x3 x4 x5 x6 x7 p q := by
  rw [val_main_v23_apply, val_main_v22_apply, val_main_v21_apply, val_main_v20_apply]
  have e1 : ∀ k, lidx_main_v20 (ix2 p q) k = ix2 p k := fun k => funext fun a => Fin.ext (by
    match a with
    | ⟨0, _⟩ => rfl
    | ⟨1, _⟩ => rfl)
  have e2 : ∀ k, ridx_main_v20 (ix2 p q) k = ix2 k q := fun k => funext fun a => Fin.ext (by
    match a with
    | ⟨0, _⟩ => rfl
    | ⟨1, _⟩ => rfl)
  have e3 : idx_main_v21 (idx_main_v22 (ix2 p q)) = ix1 q := funext fun a => Fin.ext (by
    match a with
    | ⟨0, _⟩ => rfl)
  simp only [e1, e2, e3, layer2]
  rfl

/-- The first slice at `(p, k)`: the encoder's column `k`. -/
theorem mean_apply
    (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal))
    (p : Fin 4096) (k : Fin 64) :
    val_main_v24 (F := Ideal) x0 x2 x3 x4 x5 x6 x7 (ix2 p k) = meanOf (encOut x0 x2 x3 x4 x5 x6 x7) p k := by
  rw [val_main_v24_apply]
  have e : idx_main_v24 (ix2 p k) = ix2 p (⟨k.val, by omega⟩ : Fin 128) := funext fun a => Fin.ext (by
    match a with
    | ⟨0, _⟩ => rfl
    | ⟨1, _⟩ => rfl)
  rw [e, enc_apply]
  rfl

/-- The second slice at `(p, k)`: the encoder's column `64 + k`. -/
theorem sd_apply
    (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal))
    (p : Fin 4096) (k : Fin 64) :
    val_main_v25 (F := Ideal) x0 x2 x3 x4 x5 x6 x7 (ix2 p k) = sdOf (encOut x0 x2 x3 x4 x5 x6 x7) p k := by
  rw [val_main_v25_apply]
  have e : idx_main_v25 (ix2 p k) = ix2 p (⟨64 + k.val, by omega⟩ : Fin 128) := funext fun a => Fin.ext (by
    match a with
    | ⟨0, _⟩ => rfl
    | ⟨1, _⟩ => rfl)
  rw [e, enc_apply]
  rfl

/-- The reference's second result: the latent mean. -/
theorem mean_eq (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) :
    val_main_v24 (F := Ideal) x0 x2 x3 x4 x5 x6 x7 = arr (meanOf (encOut x0 x2 x3 x4 x5 x6 x7)) :=
  eq_arr _ _ (mean_apply x0 x2 x3 x4 x5 x6 x7)

/-- The reference's third result: the latent deviation. -/
theorem sd_eq (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) :
    val_main_v25 (F := Ideal) x0 x2 x3 x4 x5 x6 x7 = arr (sdOf (encOut x0 x2 x3 x4 x5 x6 x7)) :=
  eq_arr _ _ (sd_apply x0 x2 x3 x4 x5 x6 x7)

/-- The latent sample at `(r, k)`. Row `r` of the `[65536, 64]` array is entry `(r div 16, r mod 16)` of the
    `[4096, 16, 64]` array it reshapes: the flat position `r · 64 + k` has coordinates `(r · 64 + k) div 1024 = r div 16`,
    `(r · 64 + k) div 64 mod 16 = r mod 16` and `(r · 64 + k) mod 64 = k`. There the noise is broadcast along the batch
    axis, and the deviation and the mean along the noise axis. -/
theorem latent_apply
    (x0 : (⟨S4096x784, .f32⟩ : BufTy).Contents (Elt Ideal)) (x1 : (⟨S16x64, .f32⟩ : BufTy).Contents (Elt Ideal))
    (x2 : (⟨S784x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (x6 : (⟨S512x128, .f32⟩ : BufTy).Contents (Elt Ideal)) (x7 : (⟨S128, .f32⟩ : BufTy).Contents (Elt Ideal))
    (r : Fin 65536) (k : Fin 64) :
    val_main_v34 (F := Ideal) x0 x1 x2 x3 x4 x5 x6 x7 (ix2 r k) = latent (B := 4096) (R := 65536) rfl (mat x1) (sdOf (encOut x0 x2 x3 x4 x5 x6 x7)) (meanOf (encOut x0 x2 x3 x4 x5 x6 x7)) r k := by
  rw [val_main_v34_apply, val_main_v33_apply, val_main_v30_apply, val_main_v28_apply, val_main_v26_apply,
    val_main_v29_apply, val_main_v27_apply, val_main_v32_apply, val_main_v31_apply]
  have e0 : idx_main_v34 (ix2 r k)
      = ix3 (⟨r.val / 16, by omega⟩ : Fin 4096) (⟨r.val % 16, Nat.mod_lt _ (by decide)⟩ : Fin 16) k :=
    funext fun a => Fin.ext (by
      match a with
      | ⟨0, _⟩ => show (r.val * 64 + k.val) / 1024 = r.val / 16; omega
      | ⟨1, _⟩ => show (r.val * 64 + k.val) / 64 % 16 = r.val % 16; omega
      | ⟨2, _⟩ => show (r.val * 64 + k.val) % 64 = k.val; omega)
  have e1 : ∀ (b : Fin 4096) (l : Fin 16), idx_main_v26 (idx_main_v28 (ix3 b l k)) = ix2 l k := fun b l => funext fun a => Fin.ext (by
    match a with
    | ⟨0, _⟩ => rfl
    | ⟨1, _⟩ => rfl)
  have e2 : ∀ (b : Fin 4096) (l : Fin 16), idx_main_v27 (idx_main_v29 (ix3 b l k)) = ix2 b k := fun b l => funext fun a => Fin.ext (by
    match a with
    | ⟨0, _⟩ => rfl
    | ⟨1, _⟩ => rfl)
  have e3 : ∀ (b : Fin 4096) (l : Fin 16), idx_main_v31 (idx_main_v32 (ix3 b l k)) = ix2 b k := fun b l => funext fun a => Fin.ext (by
    match a with
    | ⟨0, _⟩ => rfl
    | ⟨1, _⟩ => rfl)
  rw [e0, e1, e2, e3, sd_apply, mean_apply]
  rfl

/-- The first decoder layer at `(r, q)`: the logistic of `(∑ₖ z r k · w₁ k q) + b₁ q`, `z` the latent sample. -/
theorem layer4
    (x0 : (⟨S4096x784, .f32⟩ : BufTy).Contents (Elt Ideal)) (x1 : (⟨S16x64, .f32⟩ : BufTy).Contents (Elt Ideal))
    (x2 : (⟨S784x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (x6 : (⟨S512x128, .f32⟩ : BufTy).Contents (Elt Ideal)) (x7 : (⟨S128, .f32⟩ : BufTy).Contents (Elt Ideal))
    (x8 : (⟨S64x512, .f32⟩ : BufTy).Contents (Elt Ideal)) (x9 : (⟨S512, .f32⟩ : BufTy).Contents (Elt Ideal))
    (r : Fin 65536) (q : Fin 512) :
    val_main_v44 (F := Ideal) x0 x1 x2 x3 x4 x5 x6 x7 x8 x9 (ix2 r q) = (act (dense (latent (B := 4096) (R := 65536) rfl (mat x1) (sdOf (encOut x0 x2 x3 x4 x5 x6 x7)) (meanOf (encOut x0 x2 x3 x4 x5 x6 x7))) (mat x8) (vec x9))) r q := by
  rw [val_main_v44_apply, val_main_v43_apply, val_main_cst_4_apply, val_main_v42_apply, val_main_v41_apply, val_main_cst_3_apply,
    val_main_v40_apply, val_main_v39_apply, val_main_v38_apply, val_main_v37_apply, val_main_v36_apply, val_main_v35_apply]
  have e1 : ∀ k, lidx_main_v35 (ix2 r q) k = ix2 r k := fun k => funext fun a => Fin.ext (by
    match a with
    | ⟨0, _⟩ => rfl
    | ⟨1, _⟩ => rfl)
  have e2 : ∀ k, ridx_main_v35 (ix2 r q) k = ix2 k q := fun k => funext fun a => Fin.ext (by
    match a with
    | ⟨0, _⟩ => rfl
    | ⟨1, _⟩ => rfl)
  have e3 : idx_main_v36 (idx_main_v37 (ix2 r q)) = ix1 q := funext fun a => Fin.ext (by
    match a with
    | ⟨0, _⟩ => rfl)
  simp only [e1, e2, e3, latent_apply]
  rw [logistic_host]
  rfl

/-- The second decoder layer at `(r, q)`. -/
theorem layer5
    (x0 : (⟨S4096x784, .f32⟩ : BufTy).Contents (Elt Ideal)) (x1 : (⟨S16x64, .f32⟩ : BufTy).Contents (Elt Ideal))
    (x2 : (⟨S784x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (x6 : (⟨S512x128, .f32⟩ : BufTy).Contents (Elt Ideal)) (x7 : (⟨S128, .f32⟩ : BufTy).Contents (Elt Ideal))
    (x8 : (⟨S64x512, .f32⟩ : BufTy).Contents (Elt Ideal)) (x9 : (⟨S512, .f32⟩ : BufTy).Contents (Elt Ideal))
    (x10 : (⟨S512x1024, .f32⟩ : BufTy).Contents (Elt Ideal)) (x11 : (⟨S1024, .f32⟩ : BufTy).Contents (Elt Ideal))
    (r : Fin 65536) (q : Fin 1024) :
    val_main_v54 (F := Ideal) x0 x1 x2 x3 x4 x5 x6 x7 x8 x9 x10 x11 (ix2 r q) = (act (dense (act (dense (latent (B := 4096) (R := 65536) rfl (mat x1) (sdOf (encOut x0 x2 x3 x4 x5 x6 x7)) (meanOf (encOut x0 x2 x3 x4 x5 x6 x7))) (mat x8) (vec x9))) (mat x10) (vec x11))) r q := by
  rw [val_main_v54_apply, val_main_v53_apply, val_main_cst_6_apply, val_main_v52_apply, val_main_v51_apply, val_main_cst_5_apply,
    val_main_v50_apply, val_main_v49_apply, val_main_v48_apply, val_main_v47_apply, val_main_v46_apply, val_main_v45_apply]
  have e1 : ∀ k, lidx_main_v45 (ix2 r q) k = ix2 r k := fun k => funext fun a => Fin.ext (by
    match a with
    | ⟨0, _⟩ => rfl
    | ⟨1, _⟩ => rfl)
  have e2 : ∀ k, ridx_main_v45 (ix2 r q) k = ix2 k q := fun k => funext fun a => Fin.ext (by
    match a with
    | ⟨0, _⟩ => rfl
    | ⟨1, _⟩ => rfl)
  have e3 : idx_main_v46 (idx_main_v47 (ix2 r q)) = ix1 q := funext fun a => Fin.ext (by
    match a with
    | ⟨0, _⟩ => rfl)
  simp only [e1, e2, e3, layer4]
  rw [logistic_host]
  rfl

/-- The third decoder layer at `(r, q)`: the reconstruction. -/
theorem layer6
    (x0 : (⟨S4096x784, .f32⟩ : BufTy).Contents (Elt Ideal)) (x1 : (⟨S16x64, .f32⟩ : BufTy).Contents (Elt Ideal))
    (x2 : (⟨S784x1024, .f32⟩ : BufTy).Contents (Elt Ideal)) (x3 : (⟨S1024, .f32⟩ : BufTy).Contents (Elt Ideal))
    (x4 : (⟨S1024x512, .f32⟩ : BufTy).Contents (Elt Ideal)) (x5 : (⟨S512, .f32⟩ : BufTy).Contents (Elt Ideal))
    (x6 : (⟨S512x128, .f32⟩ : BufTy).Contents (Elt Ideal)) (x7 : (⟨S128, .f32⟩ : BufTy).Contents (Elt Ideal))
    (x8 : (⟨S64x512, .f32⟩ : BufTy).Contents (Elt Ideal)) (x9 : (⟨S512, .f32⟩ : BufTy).Contents (Elt Ideal))
    (x10 : (⟨S512x1024, .f32⟩ : BufTy).Contents (Elt Ideal)) (x11 : (⟨S1024, .f32⟩ : BufTy).Contents (Elt Ideal))
    (x12 : (⟨S1024x784, .f32⟩ : BufTy).Contents (Elt Ideal)) (x13 : (⟨S784, .f32⟩ : BufTy).Contents (Elt Ideal))
    (r : Fin 65536) (q : Fin 784) :
    val_main_v64 (F := Ideal) x0 x1 x2 x3 x4 x5 x6 x7 x8 x9 x10 x11 x12 x13 (ix2 r q) = recOut (encOut x0 x2 x3 x4 x5 x6 x7) x1 x8 x9 x10 x11 x12 x13 r q := by
  rw [val_main_v64_apply, val_main_v63_apply, val_main_cst_8_apply, val_main_v62_apply, val_main_v61_apply, val_main_cst_7_apply,
    val_main_v60_apply, val_main_v59_apply, val_main_v58_apply, val_main_v57_apply, val_main_v56_apply, val_main_v55_apply]
  have e1 : ∀ k, lidx_main_v55 (ix2 r q) k = ix2 r k := fun k => funext fun a => Fin.ext (by
    match a with
    | ⟨0, _⟩ => rfl
    | ⟨1, _⟩ => rfl)
  have e2 : ∀ k, ridx_main_v55 (ix2 r q) k = ix2 k q := fun k => funext fun a => Fin.ext (by
    match a with
    | ⟨0, _⟩ => rfl
    | ⟨1, _⟩ => rfl)
  have e3 : idx_main_v56 (idx_main_v57 (ix2 r q)) = ix1 q := funext fun a => Fin.ext (by
    match a with
    | ⟨0, _⟩ => rfl)
  simp only [e1, e2, e3, layer5]
  rw [logistic_host]
  rfl

/-- The reference's first result: the reconstruction. -/
theorem rec_eq (x0 : (⟨S4096x784, .f32⟩ : BufTy).Contents (Elt Ideal)) (x2 : (⟨S784x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal))
    (x1 : (⟨S16x64, .f32⟩ : BufTy).Contents (Elt Ideal)) (x8 : (⟨S64x512, .f32⟩ : BufTy).Contents (Elt Ideal))
    (x9 : (⟨S512, .f32⟩ : BufTy).Contents (Elt Ideal)) (x10 : (⟨S512x1024, .f32⟩ : BufTy).Contents (Elt Ideal))
    (x11 : (⟨S1024, .f32⟩ : BufTy).Contents (Elt Ideal)) (x12 : (⟨S1024x784, .f32⟩ : BufTy).Contents (Elt Ideal))
    (x13 : (⟨S784, .f32⟩ : BufTy).Contents (Elt Ideal)) :
    val_main_v64 (F := Ideal) x0 x1 x2 x3 x4 x5 x6 x7 x8 x9 x10 x11 x12 x13
      = arr (recOut (encOut x0 x2 x3 x4 x5 x6 x7) x1 x8 x9 x10 x11 x12 x13) :=
  eq_arr _ _ (layer6 x0 x1 x2 x3 x4 x5 x6 x7 x8 x9 x10 x11 x12 x13)

end Cert.RefValue

end
-- ==== Proof.Claims.lean ====
/-
  The five claims.

  The three frames are the programs' runs with the results forgotten. The ideal pass rewrote nothing, so there is nothing
  to preserve. For the algebraic claim both idealized programs end with the same three arrays of the arguments: the
  reconstruction `arr (recOut …)`, the latent mean `arr (meanOf …)` and the latent deviation `arr (sdOf …)` of the
  encoder's output (Spec.lean). The kernel program gets there block of rows by block of rows in two regions, the reference
  on whole arrays; every layer acts on each row by itself, so the blocks are the rows of the whole, and no law of the
  extended reals beyond that is used: the precondition is never opened.
-/
import proofs.«140682_j27693949125146_1_alg».proof.Defs
import proofs.«140682_j27693949125146_1_alg».proof.Proof.Gen.Kernel.Frame
import proofs.«140682_j27693949125146_1_alg».proof.Proof.KernelRun
import proofs.«140682_j27693949125146_1_alg».proof.Proof.KernelValue
import proofs.«140682_j27693949125146_1_alg».proof.Proof.Reference
import proofs.«140682_j27693949125146_1_alg».proof.Proof.Gen.Pre_finite_inputs

noncomputable section

namespace Cert.Proof.Claims

open Idealize.ShloMosaic Idealize.ShloMosaic.TcCoe Idealize.SL.Sem Cert.Mlp
open Cert.KernelIdeal.Results

theorem frame_k : Cert.frame_Kernel := fun m ρ _ => Cert.Kernel.Gen.frame m ρ

theorem frame_ki : Cert.frame_KernelIdeal := fun m ρ _ => Cert.KernelIdeal.Gen.frame m ρ

/-- The reference's run with its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the reconstruction, the latent mean and the latent deviation of the same arguments. -/
theorem algebraic : Cert.algebraic_KernelIdeal_ReferenceIdeal := by
  intro m ρ m' ρ' _ hagree
  refine ⟨fun c => arr (recOut (E m c) (a1 m c) (a8 m c) (a9 m c) (a10 m c) (a11 m c) (a12 m c) (a13 m c)),
    fun c => arr (meanOf (E m c)), fun c => arr (sdOf (E m c)), ?_, ?_⟩
  · refine (θ_run Cert.KernelIdeal.defs _ _).mono (fun r h c => ?_) (Cert.KernelIdeal.Run.run (F := Ideal) m ρ)
    obtain ⟨h9, h4, h5, hargs⟩ := h c
    exact ⟨h9.trans (res_rec m ρ c), h4.trans (res_mean m ρ c), h5.trans (res_sd m ρ c), hargs⟩
  · refine (θ_run Cert.ReferenceIdeal.defs _ _).mono (fun r h c => ?_) (Cert.ReferenceIdeal.Value.run (F := Ideal) m' ρ')
    obtain ⟨h64, h24, h25, hargs⟩ := h c
    obtain ⟨g0, g1, g2, g3, g4, g5, g6, g7, g8, g9, g10, g11, g12, g13⟩ := hagree c
    refine ⟨h64.trans ?_, h24.trans ?_, h25.trans ?_, hargs⟩
    · rw [Cert.ReferenceIdeal.Read.val_main_v64_eq, Cert.RefValue.rec_eq, g0, g1, g2, g3, g4, g5, g6, g7, g8, g9, g10, g11, g12, g13]
    · rw [Cert.ReferenceIdeal.Read.val_main_v24_eq, Cert.RefValue.mean_eq, g0, g2, g3, g4, g5, g6, g7]
    · rw [Cert.ReferenceIdeal.Read.val_main_v25_eq, Cert.RefValue.sd_eq, g0, g2, g3, g4, g5, g6, g7]

end Cert.Proof.Claims

end
-- ==== Proof.lean ====
/-
  A variational autoencoder's forward pass: two kernels against the plain program.

  The kernel program runs an encoder kernel (three dense layers on 512 input rows per grid point, the logistic function
  after the first two), slices its `[4096, 128]` output into the latent mean and deviation, and runs a decoder kernel
  that, per grid point, forms the 16 latent samples `eps · sd + mean` of each of 64 batch rows and applies three dense
  layers, each followed by the logistic function, writing 1024 rows of the `[65536, 784]` reconstruction. The reference
  computes the same three arrays on whole matrices. Proof/Spec.lean states the common mathematics; Proof/EncValue.lean and
  Proof/DecValue.lean read each kernel region's array off its generated frame; Proof/KernelRun.lean and
  Proof/KernelValue.lean read the program's results back to its arguments; Proof/Reference.lean reads the reference's
  three results; Proof/Claims.lean puts the claims together.
-/
import proofs.«140682_j27693949125146_1_alg».proof.Defs
import proofs.«140682_j27693949125146_1_alg».proof.Proof.Claims
import proofs.«140682_j27693949125146_1_alg».proof.Proof.Gen.Kernel
import proofs.«140682_j27693949125146_1_alg».proof.Proof.Gen.KernelIdeal
import proofs.«140682_j27693949125146_1_alg».proof.Proof.Gen.ReferenceIdeal
import proofs.«140682_j27693949125146_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
